-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg10 : FVec F S2 .f32) (main_v33 : IVec S_ 1) : IVec S_ 1 :=
  let main_v34 : FVec F S2 .f32 := Host.absf main_arg10
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg7 : FVec F S128x128 .f32) (main_arg8 : FVec F S128 .f32) (main_arg9 : FVec F S128x2 .f32) (main_arg10 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x2 .f32 := Host.absf main_arg9
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg10 main_v33

def fn {F : FTy → Type} [FloatOps F] (main_arg0 : IVec S1600000 32) (main_arg1 : IVec S1600000 32) (main_arg2 : IVec S100000 32) (main_arg3 : FVec F S1x128 .f32) (main_arg4 : FVec F S128 .f32) (main_arg5 : FVec F S128x128 .f32) (main_arg6 : FVec F S128 .f32) (main_arg7 : FVec F S128x128 .f32) (main_arg8 : FVec F S128 .f32) (main_arg9 : FVec F S128x2 .f32) (main_arg10 : FVec F S2 .f32) : IVec S_ 1 :=
  let main_v0 : FVec F S1x128 .f32 := Host.absf main_arg3
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S128 .f32 := Host.absf main_arg4
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_v13 main_v16
-- ==== Kernel.lean ====
abbrev S1600000 : Shape := ⟨1, ![1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S5000x1 : Shape := ⟨2, ![5000, 1]⟩
abbrev S5000x128 : Shape := ⟨2, ![5000, 128]⟩
abbrev S1600000x128 : Shape := ⟨2, ![1600000, 128]⟩
abbrev S64 : Shape := ⟨1, ![64]⟩
abbrev S64x128 : Shape := ⟨2, ![64, 128]⟩
abbrev S64x1 : Shape := ⟨2, ![64, 1]⟩
abbrev S64x2 : Shape := ⟨2, ![64, 2]⟩
abbrev S1x2 : Shape := ⟨2, ![1, 2]⟩

abbrev nBuf : Space → Nat
  | .hbm => 111
  | .vmem => 24
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S100000, .i32⟩
  | .hbm, ⟨3, _⟩ => ⟨S1x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x1, .f32⟩
  | .hbm, ⟨37, _⟩ => ⟨S100000x1, .f32⟩
  | .hbm, ⟨38, _⟩ => ⟨S100000x1, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x1, .f32⟩
  | .hbm, ⟨48, _⟩ => ⟨S_, .f32⟩
  | .hbm, ⟨49, _⟩ => ⟨S100000x1, .f32⟩
  | .hbm, ⟨50, _⟩ => ⟨S1600000x1, .i32⟩
  | .hbm, ⟨51, _⟩ => ⟨S100000x1, .f32⟩
  | .hbm, ⟨52, _⟩ => ⟨S1x128, .f32⟩
  | .hbm, ⟨53, _⟩ => ⟨S100000x128, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x128, .f32⟩
  | .hbm, ⟨84, _⟩ => ⟨S_, .f32⟩
  | .hbm, ⟨85, _⟩ => ⟨S100000x128, .f32⟩
  | .hbm, ⟨86, _⟩ => ⟨S1600000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S_, .f32⟩
  | .hbm, ⟨91, _⟩ => ⟨S100000, .f32⟩
  | .hbm, ⟨92, _⟩ => ⟨S_, .f32⟩
  | .hbm, ⟨93, _⟩ => ⟨S64, .f32⟩
  | .hbm, ⟨94, _⟩ => ⟨S100000x1, .i32⟩
  | .hbm, ⟨95, _⟩ => ⟨S64, .f32⟩
  | .hbm, ⟨96, _⟩ => ⟨S_, .f32⟩
  | .hbm, ⟨97, _⟩ => ⟨S64x128, .f32⟩
  | .hbm, ⟨98, _⟩ => ⟨S100000x1, .i32⟩
  | .hbm, ⟨99, _⟩ => ⟨S64x128, .f32⟩
  | .hbm, ⟨100, _⟩ => ⟨S_, .f32⟩
  | .hbm, ⟨101, _⟩ => ⟨S_, .f32⟩
  | .hbm, ⟨102, _⟩ => ⟨S64, .f32⟩
  | .hbm, ⟨103, _⟩ => ⟨S64, .f32⟩
  | .hbm, ⟨104, _⟩ => ⟨S64x1, .f32⟩
  | .hbm, ⟨105, _⟩ => ⟨S64x128, .f32⟩
  | .hbm, ⟨106, _⟩ => ⟨S64x128, .f32⟩
  | .hbm, ⟨107, _⟩ => ⟨S64x2, .f32⟩
  | .hbm, ⟨108, _⟩ => ⟨S1x2, .f32⟩
  | .hbm, ⟨109, _⟩ => ⟨S64x2, .f32⟩
  | .hbm, ⟨110, _⟩ => ⟨S64x2, .f32⟩
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S1x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_cst_3 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v10 : Ref sig .tc := ⟨.hbm, 31, rfl⟩
abbrev main_cst_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_7 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_8 : Ref sig .tc := ⟨.hbm, 57, rfl⟩
abbrev main_v32 : Ref sig .tc := ⟨.hbm, 58, rfl⟩
abbrev main_v33 : Ref sig .tc := ⟨.hbm, 59, rfl⟩
abbrev main_c_9 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_10 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_11 : Ref sig .tc := ⟨.hbm, 75, rfl⟩
abbrev main_v47 : Ref sig .tc := ⟨.hbm, 76, rfl⟩
abbrev main_v48 : Ref sig .tc := ⟨.hbm, 77, rfl⟩
abbrev main_c_12 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_13 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_14 : Ref sig .tc := ⟨.hbm, 90, rfl⟩
abbrev main_v59 : Ref sig .tc := ⟨.hbm, 91, rfl⟩
abbrev main_cst_15 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_16 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_17 : Ref sig .tc := ⟨.hbm, 100, rfl⟩
abbrev main_call2_v0 : Ref sig .tc := ⟨.hbm, 101, rfl⟩
abbrev main_call2_v1 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S1600000x1_S1600000_n_0_0_1_wf : ScatterDims.WF S100000 S1600000x1 S1600000 [] [0] [0] 1
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S5000x1_S1x128_S5000x128_1_0_0_1_n_n_wf : DotDims.WF S5000x1 S1x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x1_S1x128_S5000x128_1_0_0_1_n_n : DotDims S5000x1 S1x128 S5000x128 where
  lhsContracting := [1]
  rhsContracting := [0]
  lhsNonContracting := [0]
  rhsNonContracting := [1]
  lhsBatch := []
  rhsBatch := []
  wf := dot_S5000x1_S1x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_v26) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S1600000 : Shape := ⟨1, ![1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S64 : Shape := ⟨1, ![64]⟩
abbrev S64x128 : Shape := ⟨2, ![64, 128]⟩
abbrev S64x1 : Shape := ⟨2, ![64, 1]⟩
abbrev S64x2 : Shape := ⟨2, ![64, 2]⟩
abbrev S1x2 : Shape := ⟨2, ![1, 2]⟩

abbrev nBuf : Space → Nat
  | .hbm => 133
  | .vmem => 0
  | .smem => 0
  | _ => 0

abbrev hbmTy0_0 (i : Nat) : BufTy := match i % 128 with
  | 0 => ⟨S1600000, .i32⟩
  | 1 => ⟨S1600000, .i32⟩
  | 2 => ⟨S100000, .i32⟩
  | 3 => ⟨S1x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x2, .f32⟩
  | 10 => ⟨S2, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .f32⟩
  | 33 => ⟨S100000, .f32⟩
  | 34 => ⟨S100000, .f32⟩
  | 35 => ⟨S100000x1, .f32⟩
  | 36 => ⟨S100000x1, .f32⟩
  | 37 => ⟨S100000x1, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x1, .f32⟩
  | 47 => ⟨S_, .f32⟩
  | 48 => ⟨S100000x1, .f32⟩
  | 49 => ⟨S1600000x1, .i32⟩
  | 50 => ⟨S100000x1, .f32⟩
  | 51 => ⟨S100000x1, .f32⟩
  | 52 => ⟨S100000x1, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S100000x1, .f32⟩
  | 61 => ⟨S100000x128, .f32⟩
  | 62 => ⟨S100000x128, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .f32⟩
  | 72 => ⟨S_, .f32⟩
  | 73 => ⟨S100000x128, .f32⟩
  | 74 => ⟨S1600000x1, .i32⟩
  | 75 => ⟨S100000x128, .f32⟩
  | 76 => ⟨S100000x1, .f32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x1, .f32⟩
  | 87 => ⟨S100000x128, .f32⟩
  | 88 => ⟨S100000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S_, .f32⟩
  | 99 => ⟨S100000x128, .f32⟩
  | 100 => ⟨S1600000x1, .i32⟩
  | 101 => ⟨S100000x128, .f32⟩
  | 102 => ⟨S100000x1, .f32⟩
  | 103 => ⟨S100000x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S_, .f32⟩
  | 113 => ⟨S100000, .f32⟩
  | 114 => ⟨S_, .f32⟩
  | 115 => ⟨S64, .f32⟩
  | 116 => ⟨S100000x1, .i32⟩
  | 117 => ⟨S64, .f32⟩
  | 118 => ⟨S_, .f32⟩
  | 119 => ⟨S64x128, .f32⟩
  | 120 => ⟨S100000x1, .i32⟩
  | 121 => ⟨S64x128, .f32⟩
  | 122 => ⟨S_, .f32⟩
  | 123 => ⟨S_, .f32⟩
  | 124 => ⟨S64, .f32⟩
  | 125 => ⟨S64, .f32⟩
  | 126 => ⟨S64x1, .f32⟩
  | 127 => ⟨S64x128, .f32⟩
  | _ => ⟨S1600000, .i32⟩

abbrev hbmTy0_1 (i : Nat) : BufTy := match i % 128 with
  | 0 => ⟨S64x128, .f32⟩
  | 1 => ⟨S64x2, .f32⟩
  | 2 => ⟨S1x2, .f32⟩
  | 3 => ⟨S64x2, .f32⟩
  | 4 => ⟨S64x2, .f32⟩
  | _ => ⟨S1600000, .i32⟩

abbrev hbmTy (i : Nat) : BufTy := match i / 128 with
  | 0 => hbmTy0_0 i
  | 1 => hbmTy0_1 i
  | _ => ⟨S1600000, .i32⟩

abbrev bufTy : (tb : Table) → Fin (tcTables nBuf tb) → BufTy
  | .hbm, ⟨i, _⟩ => hbmTy i
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_cst_3 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v10 : Ref sig .tc := ⟨.hbm, 31, rfl⟩
abbrev main_cst_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_7 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call2_cst : Ref sig .tc := ⟨.hbm, 57, rfl⟩
abbrev main_call2_v0 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_c_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_10 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call3_cst : Ref sig .tc := ⟨.hbm, 83, rfl⟩
abbrev main_call3_v0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_11 : Ref sig .tc := ⟨.hbm, 89, rfl⟩
abbrev main_v57 : Ref sig .tc := ⟨.hbm, 90, rfl⟩
abbrev main_v58 : Ref sig .tc := ⟨.hbm, 91, rfl⟩
abbrev main_c_12 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_13 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_call4_cst : Ref sig .tc := ⟨.hbm, 109, rfl⟩
abbrev main_call4_v0 : Ref sig .tc := ⟨.hbm, 110, rfl⟩
abbrev main_v74 : Ref sig .tc := ⟨.hbm, 111, rfl⟩
abbrev main_cst_14 : Ref sig .tc := ⟨.hbm, 112, rfl⟩
abbrev main_v75 : Ref sig .tc := ⟨.hbm, 113, rfl⟩
abbrev main_cst_15 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_16 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_17 : Ref sig .tc := ⟨.hbm, 122, rfl⟩
abbrev main_call5_v0 : Ref sig .tc := ⟨.hbm, 123, rfl⟩
abbrev main_call5_v1 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S1600000x1_S1600000_n_0_0_1_wf : ScatterDims.WF S100000 S1600000x1 S1600000 [] [0] [0] 1
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S100000x1_S1x128_S100000x128_1_0_0_1_n_n_wf : DotDims.WF S100000x1 S1x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x2_S64x2_1_0_0_1_n_n_wf : DotDims.WF S64x128 S128x2 S64x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.Casts.lean ====
/- The outlined clamp calls (max of a degree or count vector with the constant one) name their buffers through typed
   references: a value is carried to a buffer and back along the equation "this buffer's type is the value's
   type". Where the value's type IS the buffer's type the transport is the identity, whatever the buffer. -/
import Idealize.ShloMosaic.Lib.StableHlo

noncomputable section

open Idealize.ShloMosaic Idealize.ShloMosaic.StableHlo

namespace Cert.Casts

variable {sig : RefSig} {Val : EltTy → Type}

/-- Reading a buffer's contents at the buffer's own type changes nothing. -/
theorem ofBuf_self (r : Ref sig .tc) (h1 : r.ty = r.ty) (h2 : r.space ≠ .host) (h3 : r.isScoped = false)
    (v : r.ty.Contents Val) : (TRef.of (T := r.ty) r h1 h2 h3).ofBuf v = v := eq_of_heq (cast_heq _ v)

/-- Writing a value of the buffer's own type into the buffer changes nothing. -/
theorem toBuf_self (r : Ref sig .tc) (h1 : r.ty = r.ty) (h2 : r.space ≠ .host) (h3 : r.isScoped = false)
    (v : r.ty.Contents Val) : (TRef.of (T := r.ty) r h1 h2 h3).toBuf v = v := eq_of_heq (cast_heq _ v)

end Cert.Casts

end
-- ==== Proof.Args.lean ====
/- The argument arrays at the region boundaries. No host operation and no pallas_call of the program writes an
   argument of @main, so at every boundary of the run — the entries of the three regions and the exit of the last —
   each argument's buffer still holds what the launch memory held. Read off the fold of the host stretches one
   operation at a time (each operation leaves every buffer but its result as it was), and across a region by the
   fact that the region changes only its own windows' arrays. -/
import proofs.«115108_j46694884442368_1_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Args

open Cert.KernelIdeal Cert.KernelIdeal.Gen

variable {F : FTy → Type} [FloatOps F]
variable (m : (ℓ : Loc nD τ sig) → Buf (Elt F) ℓ) (ρ : Dev nD → PrngReg)

/-- Region 0's entry contents are the five host stretches before it, folded over the launch memory. -/
local macro "read_entry0" : tactic =>
  `(tactic| (show StableHlo.after hostOps0_4 (StableHlo.after hostOps0_3 (StableHlo.after hostOps0_2
      (StableHlo.after hostOps0_1 (StableHlo.after hostOps0 _)))) _ = _; after_results))

/-! ## At region 0's entry -/

theorem at5_arg0 (c : Dev nD) : W5 m ρ c (Proc.devRef .tc main_arg0) = m ((c : Thread nD τ).loc main_arg0) := by read_entry0
theorem at5_arg1 (c : Dev nD) : W5 m ρ c (Proc.devRef .tc main_arg1) = m ((c : Thread nD τ).loc main_arg1) := by read_entry0
theorem at5_arg2 (c : Dev nD) : W5 m ρ c (Proc.devRef .tc main_arg2) = m ((c : Thread nD τ).loc main_arg2) := by read_entry0
theorem at5_arg3 (c : Dev nD) : W5 m ρ c (Proc.devRef .tc main_arg3) = m ((c : Thread nD τ).loc main_arg3) := by read_entry0
theorem at5_arg5 (c : Dev nD) : W5 m ρ c (Proc.devRef .tc main_arg5) = m ((c : Thread nD τ).loc main_arg5) := by read_entry0
theorem at5_arg6 (c : Dev nD) : W5 m ρ c (Proc.devRef .tc main_arg6) = m ((c : Thread nD τ).loc main_arg6) := by read_entry0
theorem at5_arg7 (c : Dev nD) : W5 m ρ c (Proc.devRef .tc main_arg7) = m ((c : Thread nD τ).loc main_arg7) := by read_entry0
theorem at5_arg8 (c : Dev nD) : W5 m ρ c (Proc.devRef .tc main_arg8) = m ((c : Thread nD τ).loc main_arg8) := by read_entry0
theorem at5_arg9 (c : Dev nD) : W5 m ρ c (Proc.devRef .tc main_arg9) = m ((c : Thread nD τ).loc main_arg9) := by read_entry0
theorem at5_arg10 (c : Dev nD) : W5 m ρ c (Proc.devRef .tc main_arg10) = m ((c : Thread nD τ).loc main_arg10) := by read_entry0

/-! ## At region 1's entry: region 0 writes only its result array, the stretch after it none of these -/

theorem at7_arg0 (c : Dev nD) : W7 m ρ c (Proc.devRef .tc main_arg0) = m ((c : Thread nD τ).loc main_arg0) := by
  show StableHlo.after hostOps1 (W6 m ρ c) _ = _; after_results
  exact (W6_of_ne m ρ c main_arg0 (by decide)).trans (at5_arg0 m ρ c)
theorem at7_arg1 (c : Dev nD) : W7 m ρ c (Proc.devRef .tc main_arg1) = m ((c : Thread nD τ).loc main_arg1) := by
  show StableHlo.after hostOps1 (W6 m ρ c) _ = _; after_results
  exact (W6_of_ne m ρ c main_arg1 (by decide)).trans (at5_arg1 m ρ c)
theorem at7_arg2 (c : Dev nD) : W7 m ρ c (Proc.devRef .tc main_arg2) = m ((c : Thread nD τ).loc main_arg2) := by
  show StableHlo.after hostOps1 (W6 m ρ c) _ = _; after_results
  exact (W6_of_ne m ρ c main_arg2 (by decide)).trans (at5_arg2 m ρ c)
theorem at7_arg5 (c : Dev nD) : W7 m ρ c (Proc.devRef .tc main_arg5) = m ((c : Thread nD τ).loc main_arg5) := by
  show StableHlo.after hostOps1 (W6 m ρ c) _ = _; after_results
  exact (W6_of_ne m ρ c main_arg5 (by decide)).trans (at5_arg5 m ρ c)
theorem at7_arg7 (c : Dev nD) : W7 m ρ c (Proc.devRef .tc main_arg7) = m ((c : Thread nD τ).loc main_arg7) := by
  show StableHlo.after hostOps1 (W6 m ρ c) _ = _; after_results
  exact (W6_of_ne m ρ c main_arg7 (by decide)).trans (at5_arg7 m ρ c)
theorem at7_arg8 (c : Dev nD) : W7 m ρ c (Proc.devRef .tc main_arg8) = m ((c : Thread nD τ).loc main_arg8) := by
  show StableHlo.after hostOps1 (W6 m ρ c) _ = _; after_results
  exact (W6_of_ne m ρ c main_arg8 (by decide)).trans (at5_arg8 m ρ c)
theorem at7_arg9 (c : Dev nD) : W7 m ρ c (Proc.devRef .tc main_arg9) = m ((c : Thread nD τ).loc main_arg9) := by
  show StableHlo.after hostOps1 (W6 m ρ c) _ = _; after_results
  exact (W6_of_ne m ρ c main_arg9 (by decide)).trans (at5_arg9 m ρ c)
theorem at7_arg10 (c : Dev nD) : W7 m ρ c (Proc.devRef .tc main_arg10) = m ((c : Thread nD τ).loc main_arg10) := by
  show StableHlo.after hostOps1 (W6 m ρ c) _ = _; after_results
  exact (W6_of_ne m ρ c main_arg10 (by decide)).trans (at5_arg10 m ρ c)

/-! ## At region 2's entry -/

theorem at9_arg2 (c : Dev nD) : W9 m ρ c (Proc.devRef .tc main_arg2) = m ((c : Thread nD τ).loc main_arg2) := by
  show StableHlo.after hostOps2 (W8 m ρ c) _ = _; after_results
  exact (W8_of_ne m ρ c main_arg2 (by decide)).trans (at7_arg2 m ρ c)
theorem at9_arg7 (c : Dev nD) : W9 m ρ c (Proc.devRef .tc main_arg7) = m ((c : Thread nD τ).loc main_arg7) := by
  show StableHlo.after hostOps2 (W8 m ρ c) _ = _; after_results
  exact (W8_of_ne m ρ c main_arg7 (by decide)).trans (at7_arg7 m ρ c)
theorem at9_arg9 (c : Dev nD) : W9 m ρ c (Proc.devRef .tc main_arg9) = m ((c : Thread nD τ).loc main_arg9) := by
  show StableHlo.after hostOps2 (W8 m ρ c) _ = _; after_results
  exact (W8_of_ne m ρ c main_arg9 (by decide)).trans (at7_arg9 m ρ c)
theorem at9_arg10 (c : Dev nD) : W9 m ρ c (Proc.devRef .tc main_arg10) = m ((c : Thread nD τ).loc main_arg10) := by
  show StableHlo.after hostOps2 (W8 m ρ c) _ = _; after_results
  exact (W8_of_ne m ρ c main_arg10 (by decide)).trans (at7_arg10 m ρ c)

/-! ## At region 2's exit -/

theorem at10_arg2 (c : Dev nD) : W10 m ρ c (Proc.devRef .tc main_arg2) = m ((c : Thread nD τ).loc main_arg2) :=
  (W10_of_ne m ρ c main_arg2 (by decide)).trans (at9_arg2 m ρ c)
theorem at10_arg9 (c : Dev nD) : W10 m ρ c (Proc.devRef .tc main_arg9) = m ((c : Thread nD τ).loc main_arg9) :=
  (W10_of_ne m ρ c main_arg9 (by decide)).trans (at9_arg9 m ρ c)
theorem at10_arg10 (c : Dev nD) : W10 m ρ c (Proc.devRef .tc main_arg10) = m ((c : Thread nD τ).loc main_arg10) :=
  (W10_of_ne m ρ c main_arg10 (by decide)).trans (at9_arg10 m ρ c)

end Cert.KernelIdeal.Args

end
-- ==== Proof.Entry0.lean ====
/- What region 0 finds when it is entered. The five host stretches before the first pallas_call compute, from the
   edge lists src and dst alone, the in- and out-degree vectors (two scatter-adds of ones), their clamps at one, the
   two normalisation vectors (clamped degree to the power -1/2), the first layer's messages (in-degree times the
   source normalisation, gathered along src) and their sum over incoming edges (scatter-add along dst); and they
   reshape the first bias to a row. These are operation for operation the reference's stages, so each buffer the
   region reads holds the reference's stage of the same arguments. Read stretch by stretch: what a stretch reads of
   the boundary before it is named first (a scatter-add's value is never opened), then the stretch's own
   operations are compared. -/
import proofs.«115108_j46694884442368_1_alg».proof.Proof.Gen.KernelIdeal.Frame
import proofs.«115108_j46694884442368_1_alg».proof.Proof.Gen.ReferenceIdeal.Read
import proofs.«115108_j46694884442368_1_alg».proof.Proof.Casts
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen

variable (m : (ℓ : Loc nD τ sig) → Buf (Elt Ideal) ℓ) (ρ : Dev nD → PrngReg)

/-- A clamp carries its values along its buffers' type equations (a degree vector's, a scalar's): the identity each
    time, whichever buffer. -/
local macro "drop_transports" : tactic =>
  `(tactic| ((repeat rw [Cert.Casts.ofBuf_self main_v6 rfl (by decide) rfl]); (repeat rw [Cert.Casts.ofBuf_self main_cst_2 rfl (by decide) rfl])))

/-! ## After the first stretch: the two degree vectors -/

/-- The in-degrees: ones summed along dst. -/
theorem w1_v3 (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl

/-- The out-degrees: ones summed along src. -/
theorem w1_v6 (c : Dev nD) : W1 m ρ c (Proc.devRef .tc main_v6) = Cert.ReferenceIdeal.Read.val_main_v6 (F := Ideal) (m ((c : Thread nD τ).loc main_arg0)) := by
  show StableHlo.after hostOps0 (W0 m ρ c) (Proc.devRef .tc main_v6) = _
  after_results
  rfl

theorem w1_cst2 (c : Dev nD) : W1 m ρ c (Proc.devRef .tc main_cst_2) = Cert.ReferenceIdeal.Read.val_main_cst_2 (F := Ideal) := by
  show StableHlo.after hostOps0 (W0 m ρ c) (Proc.devRef .tc main_cst_2) = _
  after_results
  rfl

/-! ## The clamp of the out-degrees -/

theorem w2_v7 (c : Dev nD) : W2 m ρ c (Proc.devRef .tc main_v7) = Cert.ReferenceIdeal.Read.val_main_v7 (F := Ideal) (m ((c : Thread nD τ).loc main_arg0)) := by
  have e6 := w1_v6 m ρ c
  have ec := w1_cst2 m ρ c
  show StableHlo.after hostOps0_1 (W1 m ρ c) (Proc.devRef .tc main_v7) = _
  generalize W1 m ρ c = X at e6 ec ⊢
  after_results
  rw [e6, ec]
  unfold Cert.ReferenceIdeal.Read.val_main_v7 Cert.ReferenceIdeal.Read.val_main_call0_v1 Cert.ReferenceIdeal.Read.val_main_call0_v0
  generalize Cert.ReferenceIdeal.Read.val_main_v6 (F := Ideal) (m ((c : Thread nD τ).loc main_arg0)) = b
  generalize Cert.ReferenceIdeal.Read.val_main_cst_2 (F := Ideal) = k
  drop_transports
  all_goals rfl

theorem w2_v3 (c : Dev nD) : W2 m ρ c (Proc.devRef .tc main_v3) = Cert.ReferenceIdeal.Read.val_main_v3 (F := Ideal) (m ((c : Thread nD τ).loc main_arg1)) := by
  have e := w1_v3 m ρ c
  show StableHlo.after hostOps0_1 (W1 m ρ c) (Proc.devRef .tc main_v3) = _
  generalize W1 m ρ c = X at e ⊢
  after_results
  exact e

/-! ## The source normalisation: the clamped out-degrees to the power -1/2 -/

theorem w3_v9 (c : Dev nD) : W3 m ρ c (Proc.devRef .tc main_v9) = Cert.ReferenceIdeal.Read.val_main_v9 (F := Ideal) (m ((c : Thread nD τ).loc main_arg0)) := by
  have e7 := w2_v7 m ρ c
  show StableHlo.after hostOps0_2 (W2 m ρ c) (Proc.devRef .tc main_v9) = _
  generalize W2 m ρ c = X at e7 ⊢
  after_results
  rw [e7]
  unfold Cert.ReferenceIdeal.Read.val_main_v9 Cert.ReferenceIdeal.Read.val_main_v8 Cert.ReferenceIdeal.Read.val_main_cst_3
  generalize Cert.ReferenceIdeal.Read.val_main_v7 (F := Ideal) (m ((c : Thread nD τ).loc main_arg0)) = b
  rfl

theorem w3_cst4 (c : Dev nD) : W3 m ρ c (Proc.devRef .tc main_cst_4) = Cert.ReferenceIdeal.Read.val_main_cst_4 (F := Ideal) := by
  show StableHlo.after hostOps0_2 (W2 m ρ c) (Proc.devRef .tc main_cst_4) = _
  generalize W2 m ρ c = X
  after_results
  rfl

theorem w3_v3 (c : Dev nD) : W3 m ρ c (Proc.devRef .tc main_v3) = Cert.ReferenceIdeal.Read.val_main_v3 (F := Ideal) (m ((c : Thread nD τ).loc main_arg1)) := by
  have e := w2_v3 m ρ c
  show StableHlo.after hostOps0_2 (W2 m ρ c) (Proc.devRef .tc main_v3) = _
  generalize W2 m ρ c = X at e ⊢
  after_results
  exact e

/-! ## The clamp of the in-degrees -/

theorem w4_v10 (c : Dev nD) : W4 m ρ c (Proc.devRef .tc main_v10) = Cert.ReferenceIdeal.Read.val_main_v10 (F := Ideal) (m ((c : Thread nD τ).loc main_arg1)) := by
  have e3 := w3_v3 m ρ c
  have ec := w3_cst4 m ρ c
  show StableHlo.after hostOps0_3 (W3 m ρ c) (Proc.devRef .tc main_v10) = _
  generalize W3 m ρ c = X at e3 ec ⊢
  after_results
  rw [e3, ec]
  unfold Cert.ReferenceIdeal.Read.val_main_v10 Cert.ReferenceIdeal.Read.val_main_call1_v1 Cert.ReferenceIdeal.Read.val_main_call1_v0
  generalize Cert.ReferenceIdeal.Read.val_main_v3 (F := Ideal) (m ((c : Thread nD τ).loc main_arg1)) = b
  generalize Cert.ReferenceIdeal.Read.val_main_cst_4 (F := Ideal) = k
  drop_transports
  all_goals rfl

theorem w4_v3 (c : Dev nD) : W4 m ρ c (Proc.devRef .tc main_v3) = Cert.ReferenceIdeal.Read.val_main_v3 (F := Ideal) (m ((c : Thread nD τ).loc main_arg1)) := by
  have e := w3_v3 m ρ c
  show StableHlo.after hostOps0_3 (W3 m ρ c) (Proc.devRef .tc main_v3) = _
  generalize W3 m ρ c = X at e ⊢
  after_results
  exact e

theorem w4_v9 (c : Dev nD) : W4 m ρ c (Proc.devRef .tc main_v9) = Cert.ReferenceIdeal.Read.val_main_v9 (F := Ideal) (m ((c : Thread nD τ).loc main_arg0)) := by
  have e := w3_v9 m ρ c
  show StableHlo.after hostOps0_3 (W3 m ρ c) (Proc.devRef .tc main_v9) = _
  generalize W3 m ρ c = X at e ⊢
  after_results
  exact e

/-- No operation of the first four stretches writes an argument. -/
theorem w4_arg0 (c : Dev nD) : W4 m ρ c (Proc.devRef .tc main_arg0) = (m ((c : Thread nD τ).loc main_arg0)) := by
  show StableHlo.after hostOps0_3 (StableHlo.after hostOps0_2 (StableHlo.after hostOps0_1 (StableHlo.after hostOps0 _))) _ = _
  after_results

theorem w4_arg1 (c : Dev nD) : W4 m ρ c (Proc.devRef .tc main_arg1) = (m ((c : Thread nD τ).loc main_arg1)) := by
  show StableHlo.after hostOps0_3 (StableHlo.after hostOps0_2 (StableHlo.after hostOps0_1 (StableHlo.after hostOps0 _))) _ = _
  after_results

theorem w4_arg4 (c : Dev nD) : W4 m ρ c (Proc.devRef .tc main_arg4) = (m ((c : Thread nD τ).loc main_arg4)) := by
  show StableHlo.after hostOps0_3 (StableHlo.after hostOps0_2 (StableHlo.after hostOps0_1 (StableHlo.after hostOps0 _))) _ = _
  after_results

/-! ## Region 0's entry -/

/-- The source normalisation vector is not written again. -/
theorem w5_v9 (c : Dev nD) : W5 m ρ c (Proc.devRef .tc main_v9) = Cert.ReferenceIdeal.Read.val_main_v9 (F := Ideal) (m ((c : Thread nD τ).loc main_arg0)) := by
  have e := w4_v9 m ρ c
  show StableHlo.after hostOps0_4 (W4 m ρ c) (Proc.devRef .tc main_v9) = _
  generalize W4 m ρ c = X at e ⊢
  after_results
  exact e

/-- The destination normalisation as a column: the clamped in-degrees to the power -1/2. -/
theorem w5_v13 (c : Dev nD) : W5 m ρ c (Proc.devRef .tc main_v13) = Cert.ReferenceIdeal.Read.val_main_v26 (F := Ideal) (m ((c : Thread nD τ).loc main_arg1)) := by
  have e10 := w4_v10 m ρ c
  show StableHlo.after hostOps0_4 (W4 m ρ c) (Proc.devRef .tc main_v13) = _
  generalize W4 m ρ c = X at e10 ⊢
  after_results
  rw [e10]
  unfold Cert.ReferenceIdeal.Read.val_main_v26 Cert.ReferenceIdeal.Read.val_main_v12 Cert.ReferenceIdeal.Read.val_main_v11 Cert.ReferenceIdeal.Read.val_main_cst_5
  generalize Cert.ReferenceIdeal.Read.val_main_v10 (F := Ideal) (m ((c : Thread nD τ).loc main_arg1)) = b
  rfl

set_option maxHeartbeats 2000000 in
/-- The first layer's aggregated messages: the in-degrees times the source normalisation, gathered along src and
    summed along dst. -/
theorem w5_v26 (c : Dev nD) : W5 m ρ c (Proc.devRef .tc main_v26) = Cert.ReferenceIdeal.Read.val_main_v25 (F := Ideal) (m ((c : Thread nD τ).loc main_arg0)) (m ((c : Thread nD τ).loc main_arg1)) := by
  have e3 := w4_v3 m ρ c
  have e9 := w4_v9 m ρ c
  have ea0 := w4_arg0 m ρ c
  have ea1 := w4_arg1 m ρ c
  show StableHlo.after hostOps0_4 (W4 m ρ c) (Proc.devRef .tc main_v26) = _
  generalize W4 m ρ c = X at e3 e9 ea0 ea1 ⊢
  after_results
  rw [e3, e9, ea0, ea1]
  unfold Cert.ReferenceIdeal.Read.val_main_v25 Cert.ReferenceIdeal.Read.val_main_v22 Cert.ReferenceIdeal.Read.val_main_v15 Cert.ReferenceIdeal.Read.val_main_v13 Cert.ReferenceIdeal.Read.val_main_v14 Cert.ReferenceIdeal.Read.val_main_v23 Cert.ReferenceIdeal.Read.val_main_cst_7 Cert.ReferenceIdeal.Read.val_main_v24 Cert.ReferenceIdeal.Read.val_main_v21 Cert.ReferenceIdeal.Read.val_main_v20 Cert.ReferenceIdeal.Read.val_main_v19 Cert.ReferenceIdeal.Read.val_main_v18 Cert.ReferenceIdeal.Read.val_main_v17 Cert.ReferenceIdeal.Read.val_main_v16 Cert.ReferenceIdeal.Read.val_main_c Cert.ReferenceIdeal.Read.val_main_c_6
  generalize Cert.ReferenceIdeal.Read.val_main_v3 (F := Ideal) (m ((c : Thread nD τ).loc main_arg1)) = d
  generalize Cert.ReferenceIdeal.Read.val_main_v9 (F := Ideal) (m ((c : Thread nD τ).loc main_arg0)) = n
  rfl

/-- The first bias as a row. -/
theorem w5_v27 (c : Dev nD) : W5 m ρ c (Proc.devRef .tc main_v27) = shapeCast S1x128 (m ((c : Thread nD τ).loc main_arg4)) shapeCasts_S128_S1x128 := by
  have e := w4_arg4 m ρ c
  show StableHlo.after hostOps0_4 (W4 m ρ c) (Proc.devRef .tc main_v27) = _
  generalize W4 m ρ c = X at e ⊢
  after_results
  rw [e]
  rfl

end Cert.KernelIdeal.Chain

end
-- ==== Proof.Region0.lean ====
/- The first dense layer's pallas_call, read as a value. Each of the 20 grid points takes rows 5000 t … 5000 t + 4999
   of the aggregated feature column and of the degree-normalisation column, multiplies them, forms the rank-one
   product with the 1 x 128 weight row, adds the bias row and clamps below at zero; the 20 row blocks tile the
   100000 x 128 result. So, whatever the entry contents, the result array ends holding
   max ((agg * nd) W + b, 0) index by index — which is the reference's first-layer stage.

   In order: the rank-one product's operand indices and the product at an entry (a sum over the one contraction
   coordinate); the body's arithmetic at row p, column q of a block; `layer`, the whole result as one function of
   the four input arrays; each input window's block as rows of its array (the two columns move with the row block,
   the weight and bias rows stay); what point t writes back is row block t of `layer`; the row blocks cover the
   array, so the array ends holding `layer`; and `layer` of the reference's stages is the reference's stage, the
   change of float format on the way into the product being the identity on extended reals. -/
import proofs.«115108_j46694884442368_1_alg».proof.Proof.Gen.KernelIdeal.Frame
import proofs.«115108_j46694884442368_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Layer0

open Cert.KernelIdeal Cert.KernelIdeal.Gen

/-! ## The rank-one product at an entry

The product's left operand is read at the output's row and the contraction coordinate, its right operand at the
contraction coordinate and the output's column; the contraction has one coordinate. -/

/-- The left operand's row is the output's row. -/
theorem lhs_row (i : S5000x128.Idx) (q : dot_S5000x1_S1x128_S5000x128_1_0_0_1_n_n.contr.Idx) :
    (dot_S5000x1_S1x128_S5000x128_1_0_0_1_n_n.lhsIdx i q 0).val = (i 0).val := by
  unfold DotDims.lhsIdx
  rw [dif_neg (show ¬(0 : Fin S5000x1.rank) ∈ dot_S5000x1_S1x128_S5000x128_1_0_0_1_n_n.lhsBatch by decide), dif_pos (show (0 : Fin S5000x1.rank) ∈ dot_S5000x1_S1x128_S5000x128_1_0_0_1_n_n.lhsNonContracting by decide)]
  rfl
/-- The left operand's column is the contraction coordinate. -/
theorem lhs_contr (i : S5000x128.Idx) (q : dot_S5000x1_S1x128_S5000x128_1_0_0_1_n_n.contr.Idx) :
    (dot_S5000x1_S1x128_S5000x128_1_0_0_1_n_n.lhsIdx i q 1).val = (q ⟨0, by decide⟩).val :=
  dot_S5000x1_S1x128_S5000x128_1_0_0_1_n_n.lhsIdx_val_of_single rfl i q
/-- The right operand's row is the contraction coordinate. -/
theorem rhs_contr (i : S5000x128.Idx) (q : dot_S5000x1_S1x128_S5000x128_1_0_0_1_n_n.contr.Idx) :
    (dot_S5000x1_S1x128_S5000x128_1_0_0_1_n_n.rhsIdx i q 0).val = (q ⟨0, by decide⟩).val :=
  dot_S5000x1_S1x128_S5000x128_1_0_0_1_n_n.rhsIdx_val_of_single rfl i q
/-- The right operand's column is the output's column. -/
theorem rhs_col (i : S5000x128.Idx) (q : dot_S5000x1_S1x128_S5000x128_1_0_0_1_n_n.contr.Idx) :
    (dot_S5000x1_S1x128_S5000x128_1_0_0_1_n_n.rhsIdx i q 1).val = (i 1).val := by
  unfold DotDims.rhsIdx
  rw [dif_neg (show ¬(1 : Fin S1x128.rank) ∈ dot_S5000x1_S1x128_S5000x128_1_0_0_1_n_n.rhsBatch by decide), dif_pos (show (1 : Fin S1x128.rank) ∈ dot_S5000x1_S1x128_S5000x128_1_0_0_1_n_n.rhsNonContracting by decide)]
  rfl

/-- The block's matrix product into a zero accumulator, at row p and column q: the one-term sum of the left
    column's entry at row p times the weight row's entry at column q. -/
theorem matmul_at (l : FVec Ideal S5000x1 .bf16) (r : FVec Ideal S1x128 .bf16) (p : Fin 5000) (q : Fin 128) :
    matmul dot_S5000x1_S1x128_S5000x128_1_0_0_1_n_n none l r (constant (F := Ideal) S5000x128 .f32 0x00000000#32) (ix2 p q)
      = ∑ k : Fin 1, l (ix2 p k) * r (ix2 k q) := by
  simp only [matmul]
  rw [Ideal.matmul_constant_zero_apply, ← Equiv.sum_comp (contrEquiv1 dot_S5000x1_S1x128_S5000x128_1_0_0_1_n_n 1 rfl rfl).symm]
  refine Finset.sum_congr rfl fun k _ => ?_
  have hk := contrEquiv1_symm_val dot_S5000x1_S1x128_S5000x128_1_0_0_1_n_n 1 rfl rfl k
  have el : dot_S5000x1_S1x128_S5000x128_1_0_0_1_n_n.lhsIdx (ix2 p q) ((contrEquiv1 dot_S5000x1_S1x128_S5000x128_1_0_0_1_n_n 1 rfl rfl).symm k) = ix2 p k := funext fun a => Fin.ext (by
    match a with
    | ⟨0, _⟩ => exact lhs_row _ _
    | ⟨1, _⟩ => exact (lhs_contr _ _).trans hk)
  have er : dot_S5000x1_S1x128_S5000x128_1_0_0_1_n_n.rhsIdx (ix2 p q) ((contrEquiv1 dot_S5000x1_S1x128_S5000x128_1_0_0_1_n_n 1 rfl rfl).symm k) = ix2 k q := funext fun a => Fin.ext (by
    match a with
    | ⟨0, _⟩ => exact (rhs_contr _ _).trans hk
    | ⟨1, _⟩ => exact rhs_col _ _)
  rw [el, er]

/-- The body's arithmetic at row p, column q of its block: the product of the two columns' entries at row p times
    the weight at column q, plus the bias at column q, clamped below at zero. -/
theorem payload_at (b0 b1 : Vec Ideal S5000x1 .f32) (b2 b3 : Vec Ideal S1x128 .f32) (p : Fin 5000) (q : Fin 128) :
    k0_pay1 (F := Ideal) b0 b1 b2 b3 (ix2 p q)
      = max ((∑ k : Fin 1, (b0 (ix2 p k) * b1 (ix2 p k)) * b2 (ix2 k q)) + b3 (ix2 0 q)) 0 := by
  unfold k0_pay1
  simp only [shapeCast_self]
  rw [maximumf_apply, addf_apply, matmul_at, broadcast_apply, Ideal.ofBits_def, Ideal.ofBits_zero_f32,
    broadcastTo_apply b3 broadcasts_S1x128_S5000x128 (ix2 p q) (ix2 0 q) (fun a => by
      match a with
      | ⟨0, _⟩ => show (0 : Nat) = if (1 : Nat) = 1 then 0 else p.val; rw [if_pos rfl]
      | ⟨1, _⟩ => show q.val = if (128 : Nat) = 1 then 0 else q.val; rw [if_neg (by decide)])]
  rfl

/-! ## The layer as one function, and the blocks as rows of the arrays -/

/-- The first dense layer as ONE function of the four arrays the region reads, index by index: at row r and column q,
    the aggregated entry of row r times the normalisation entry of row r, times the weight at column q (a one-term
    contraction), plus the bias row at column q, clamped below at zero. -/
def layer (a n : (⟨S100000x1, .f32⟩ : BufTy).Contents (Elt Ideal)) (w b : (⟨S1x128, .f32⟩ : BufTy).Contents (Elt Ideal)) :
    (⟨S100000x128, .f32⟩ : BufTy).Contents (Elt Ideal) := fun i =>
  max ((∑ k : Fin 1, (a (ix2 (⟨(i 0).val, (i 0).isLt⟩ : Fin 100000) k) * n (ix2 (⟨(i 0).val, (i 0).isLt⟩ : Fin 100000) k))
      * w (ix2 k (⟨(i 1).val, (i 1).isLt⟩ : Fin 128))) + b (ix2 (0 : Fin 1) (⟨(i 1).val, (i 1).isLt⟩ : Fin 128))) 0

/-- The body's loads and its one store start at the origin of their buffers. -/
theorem zero_offsets : (![0, 0] : Fin 2 → Nat) = fun _ => 0 := funext fun a => by fin_cases a <;> rfl

/-- The printed index maps over the grid: at point t the two column windows and the result window sit at row block t,
    the weight row and the bias row at block 0; the one column axis is never blocked. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The aggregated column's block at point t holds rows 5000 t … 5000 t + 4999 of its array. -/
theorem agg_block (V : (c : Dev nD) → (b : Ref sig .tc) → Buf (Elt Ideal) ((c : Thread nD τ).loc b)) (c : Dev nD)
    (a : (⟨S100000x1, .f32⟩ : BufTy).Contents (Elt Ideal)) (ha : V c main_v26 = a) (t : Fin cfg0.N)
    (p : Fin 5000) (k : Fin 1) (r : Fin 100000) (hr : r.val = t.val * 5000 + p.val) :
    iblk0 (F := Ideal) V c 0 t (ix2 p k) = a (ix2 r k) := by
  obtain ⟨e00, e01, -⟩ := block_indices t
  show V c main_v26 (((cfg0.win 0).blk t).view.emb (ix2 p k)) = a (ix2 r k)
  rw [ha]
  refine congrArg a (funext fun ax => Fin.ext ?_)
  match ax with
  | ⟨0, _⟩ => show win0_0.index t (0 : Fin 2) * 5000 + 1 * p.val = r.val; rw [e00, hr]; omega
  | ⟨1, _⟩ => show win0_0.index t (1 : Fin 2) * 1 + 1 * k.val = k.val; rw [e01]; omega

/-- The normalisation column's block at point t holds the same rows of its array. -/
theorem norm_block (V : (c : Dev nD) → (b : Ref sig .tc) → Buf (Elt Ideal) ((c : Thread nD τ).loc b)) (c : Dev nD)
    (n : (⟨S100000x1, .f32⟩ : BufTy).Contents (Elt Ideal)) (hn : V c main_v13 = n) (t : Fin cfg0.N)
    (p : Fin 5000) (k : Fin 1) (r : Fin 100000) (hr : r.val = t.val * 5000 + p.val) :
    iblk0 (F := Ideal) V c 1 t (ix2 p k) = n (ix2 r k) := by
  obtain ⟨-, -, e10, e11, -⟩ := block_indices t
  show V c main_v13 (((cfg0.win 1).blk t).view.emb (ix2 p k)) = n (ix2 r k)
  rw [hn]
  refine congrArg n (funext fun ax => Fin.ext ?_)
  match ax with
  | ⟨0, _⟩ => show win0_1.index t (0 : Fin 2) * 5000 + 1 * p.val = r.val; rw [e10, hr]; omega
  | ⟨1, _⟩ => show win0_1.index t (1 : Fin 2) * 1 + 1 * k.val = k.val; rw [e11]; omega

/-- The weight row's block is the whole row at every point. -/
theorem weight_block (V : (c : Dev nD) → (b : Ref sig .tc) → Buf (Elt Ideal) ((c : Thread nD τ).loc b)) (c : Dev nD)
    (w : (⟨S1x128, .f32⟩ : BufTy).Contents (Elt Ideal)) (hw : V c main_arg3 = w) (t : Fin cfg0.N)
    (k : Fin 1) (q : Fin 128) :
    iblk0 (F := Ideal) V c 2 t (ix2 k q) = w (ix2 k q) := by
  obtain ⟨-, -, -, -, e20, e21, -⟩ := block_indices t
  show V c main_arg3 (((cfg0.win 2).blk t).view.emb (ix2 k q)) = w (ix2 k q)
  rw [hw]
  refine congrArg w (funext fun ax => Fin.ext ?_)
  match ax with
  | ⟨0, _⟩ => show win0_2.index t (0 : Fin 2) * 1 + 1 * k.val = k.val; rw [e20]; omega
  | ⟨1, _⟩ => show win0_2.index t (1 : Fin 2) * 128 + 1 * q.val = q.val; rw [e21]; omega

/-- The bias row's block is the whole row at every point. -/
theorem bias_block (V : (c : Dev nD) → (b : Ref sig .tc) → Buf (Elt Ideal) ((c : Thread nD τ).loc b)) (c : Dev nD)
    (b : (⟨S1x128, .f32⟩ : BufTy).Contents (Elt Ideal)) (hb : V c main_v27 = b) (t : Fin cfg0.N)
    (k : Fin 1) (q : Fin 128) :
    iblk0 (F := Ideal) V c 3 t (ix2 k q) = b (ix2 k q) := by
  obtain ⟨-, -, -, -, -, -, e30, e31, -⟩ := block_indices t
  show V c main_v27 (((cfg0.win 3).blk t).view.emb (ix2 k q)) = b (ix2 k q)
  rw [hb]
  refine congrArg b (funext fun ax => Fin.ext ?_)
  match ax with
  | ⟨0, _⟩ => show win0_3.index t (0 : Fin 2) * 1 + 1 * k.val = k.val; rw [e30]; omega
  | ⟨1, _⟩ => show win0_3.index t (1 : Fin 2) * 128 + 1 * q.val = q.val; rw [e31]; omega

/-- What grid point t writes back is row block t of `layer` of the arrays as the region finds them. -/
theorem row_block_written (V : (c : Dev nD) → (b : Ref sig .tc) → Buf (Elt Ideal) ((c : Thread nD τ).loc b)) (c : Dev nD)
    (a n : (⟨S100000x1, .f32⟩ : BufTy).Contents (Elt Ideal)) (w b : (⟨S1x128, .f32⟩ : BufTy).Contents (Elt Ideal))
    (ha : V c main_v26 = a) (hn : V c main_v13 = n) (hw : V c main_arg3 = w) (hb : V c main_v27 = b) (t : Fin cfg0.N) :
    (dat0 (F := Ideal) V c).flushed 4 t = ((cfg0.win 4).blk t).view.read (Elt Ideal) (layer a n w b) := by
  show (cfg0.win 4).cut (grid0.coords t) ((dat0 V c).after 4 t) = _
  rw [after0_4]
  unfold out0_4
  rw [View.canon_unit_zero zero_offsets]
  simp only [View.ld_unit_zero (S := S5000x1) zero_offsets, View.ld_unit_zero (S := S1x128) zero_offsets]
  obtain ⟨-, -, -, -, -, -, -, -, e40, e41⟩ := block_indices t
  have ht : t.val < 20 := lt_of_lt_of_eq t.isLt N_0
  funext j
  obtain ⟨p, q, rfl⟩ : ∃ (p : Fin 5000) (q : Fin 128), j = ix2 p q := ⟨j 0, j 1, eq_ix2 j⟩
  have hp : p.val < 5000 := p.isLt
  obtain ⟨r, hr⟩ : ∃ r : Fin 100000, r.val = t.val * 5000 + p.val := ⟨⟨t.val * 5000 + p.val, by omega⟩, rfl⟩
  have hi : ((cfg0.win 4).blk t).view.emb (ix2 p q) = ix2 r q :=
    funext fun ax => Fin.ext (by
      match ax with
      | ⟨0, _⟩ => show win0_4.index t (0 : Fin 2) * 5000 + 1 * p.val = r.val; rw [e40, hr]; omega
      | ⟨1, _⟩ => show win0_4.index t (1 : Fin 2) * 128 + 1 * q.val = q.val; rw [e41]; omega)
  show k0_pay1 (F := Ideal) (iblk0 V c 0 t) (iblk0 V c 1 t) (iblk0 V c 2 t) (iblk0 V c 3 t) (ix2 p q)
    = layer a n w b (((cfg0.win 4).blk t).view.emb (ix2 p q))
  rw [hi]
  refine (payload_at (iblk0 V c 0 t) (iblk0 V c 1 t) (iblk0 V c 2 t) (iblk0 V c 3 t) p q).trans ?_
  show _ = max ((∑ k : Fin 1, (a (ix2 r k) * n (ix2 r k)) * w (ix2 k q)) + b (ix2 (0 : Fin 1) q)) 0
  rw [bias_block V c b hb t 0 q]
  refine congrArg (fun s => max (s + b (ix2 (0 : Fin 1) q)) 0) (Finset.sum_congr rfl fun k _ => ?_)
  rw [agg_block V c a ha t p k r hr, norm_block V c n hn t p k r hr, weight_block V c w hw t k q]

/-! ## The row blocks cover the result; the reference's stage -/

/-- An index of the result array lies in point t's block iff each coordinate is in the block's range on its axis. -/
theorem mem_row_block (t : Fin cfg0.N) (i : S100000x128.Idx) :
    i ∈ ((cfg0.win 4).blk t).view.set ↔ ∀ ax : Fin 2, win0_4.index t ax * S5000x128.size ax ≤ (i ax).val
      ∧ (i ax).val < win0_4.index t ax * S5000x128.size ax + S5000x128.size ax := by
  show i ∈ ((View.whole main_v28).slice (win0_4.rect t)).set ↔ _
  rw [View.set_slice_whole, Rect.mem_set_unit]
  exact Iff.rfl

/-- The 20 row blocks tile the result array: row r lies in the block of point r / 5000, which is written back. -/
theorem row_blocks_cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, e40, e41⟩ := block_indices t
  refine ⟨t, flush0_4 t, ?_⟩
  rw [mem_row_block]
  intro ax
  match ax with
  | ⟨0, _⟩ =>
    show win0_4.index t (0 : Fin 2) * 5000 ≤ (i 0).val ∧ (i 0).val < win0_4.index t (0 : Fin 2) * 5000 + 5000
    rw [e40, ht]; omega
  | ⟨1, _⟩ =>
    show win0_4.index t (1 : Fin 2) * 128 ≤ (i 1).val ∧ (i 1).val < win0_4.index t (1 : Fin 2) * 128 + 128
    rw [e41]; omega

open Cert.ReferenceIdeal.Read in
/-- The reference's first-layer stage is `layer` of the aggregated column, the normalisation column, the weight row and
    the bias vector laid out as a row: its product stage is the same one-term contraction, its bias is broadcast from
    the vector where the region reads a row, and its clamp is against a zero broadcast. -/
theorem reference_is_layer (x0 x1 : (⟨S1600000, .i32⟩ : BufTy).Contents (Elt Ideal)) (x3 : (⟨S1x128, .f32⟩ : BufTy).Contents (Elt Ideal))
    (x4 : (⟨S128, .f32⟩ : BufTy).Contents (Elt Ideal)) :
    layer (val_main_v25 (F := Ideal) x0 x1) (val_main_v26 (F := Ideal) x1) x3 (shapeCast S1x128 x4 shapeCasts_S128_S1x128)
      = val_main_v32 (F := Ideal) x0 x1 x3 x4 := by
  funext i
  have el : ∀ k : Fin 1, lidx_main_v28 i k = ix2 (⟨(i 0).val, (i 0).isLt⟩ : Fin 100000) k := fun k =>
    funext fun ax => by match ax with | ⟨0, _⟩ => rfl | ⟨1, _⟩ => rfl
  have er : ∀ k : Fin 1, ridx_main_v28 i k = ix2 k (⟨(i 1).val, (i 1).isLt⟩ : Fin 128) := fun k =>
    funext fun ax => by match ax with | ⟨0, _⟩ => rfl | ⟨1, _⟩ => rfl
  have eb : idx_main_v29 (idx_main_v30 i) = ix1 (⟨(i 1).val, (i 1).isLt⟩ : Fin 128) :=
    funext fun ax => by match ax with | ⟨0, _⟩ => rfl
  rw [val_main_v32_apply, val_main_v31_apply, val_main_v28_apply, val_main_v30_apply, val_main_v29_apply,
    val_main_call2_v0_apply, val_main_call2_cst_apply, eb, Ideal.maximumf_def, Ideal.addf_def, Ideal.ofBits_def,
    Ideal.ofBits_zero_f32]
  unfold layer
  rw [shapeCast_a_1a_apply]
  refine congrArg (fun s => max (s + x4 (ix1 (⟨(i 1).val, (i 1).isLt⟩ : Fin 128))) 0) (Finset.sum_congr rfl fun k _ => ?_)
  rw [val_main_v27_apply, el k, er k, Ideal.mulf_def]

/-- Region 0's result array after the region, as the reference's stage `%32` of the arguments, given that the region's
    input arrays hold the reference's stages at entry. -/
theorem region_value (V : (c : Dev nD) → (b : Ref sig .tc) → Buf (Elt Ideal) ((c : Thread nD τ).loc b)) (c : Dev nD)
    (x0 x1 : (⟨S1600000, .i32⟩ : BufTy).Contents (Elt Ideal)) (x3 : (⟨S1x128, .f32⟩ : BufTy).Contents (Elt Ideal)) (x4 : (⟨S128, .f32⟩ : BufTy).Contents (Elt Ideal))
    (hagg : V c main_v26 = Cert.ReferenceIdeal.Read.val_main_v25 (F := Ideal) x0 x1)
    (hnd : V c main_v13 = Cert.ReferenceIdeal.Read.val_main_v26 (F := Ideal) x1)
    (hW : V c main_arg3 = x3)
    (hb : V c main_v27 = shapeCast S1x128 x4 shapeCasts_S128_S1x128) :
    (dat0 (F := Ideal) V c).arrAt 4 cfg0.N = Cert.ReferenceIdeal.Read.val_main_v32 (F := Ideal) x0 x1 x3 x4 :=
  ((dat0 (F := Ideal) V c).arrAt_eq_of_cover 4
      (layer (Cert.ReferenceIdeal.Read.val_main_v25 (F := Ideal) x0 x1) (Cert.ReferenceIdeal.Read.val_main_v26 (F := Ideal) x1) x3
        (shapeCast S1x128 x4 shapeCasts_S128_S1x128))
      (fun t _ => row_block_written V c _ _ _ _ hagg hnd hW hb t) row_blocks_cover).trans
    (reference_is_layer x0 x1 x3 x4)

end Cert.KernelIdeal.Layer0

end
-- ==== Proof.Region1.lean ====
/- The second dense layer's pallas_call, read as a value. Each of the 20 grid points takes rows 5000 t … 5000 t + 4999
   of the aggregated 128-wide features, scales row r by the degree normalisation nd r, multiplies by the 128 x 128
   weight, adds the bias row and clamps below at zero; the 20 row blocks tile the 100000 x 128 result. So the result
   array ends holding max ((agg * nd) W + b, 0) index by index — the reference's second-layer stage. -/
import proofs.«115108_j46694884442368_1_alg».proof.Proof.Gen.KernelIdeal.Frame
import proofs.«115108_j46694884442368_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Layer1

open Cert.KernelIdeal Cert.KernelIdeal.Gen

/-! ## The matmul, the payload and the reference's stage at one index -/

/-- The block matmul's operand indices at output index j and contraction index q: the left operand is read at
    (row of j, q), the right at (q, lane of j) — one lemma per axis. -/
theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_contr (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block matmul into the zero accumulator at row p, lane q: the sum over the 128 contracted lanes. -/
theorem matmul_block_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ValueIdx.ix2 p q)
      = ∑ k : Fin 128, l (ValueIdx.ix2 p k) * r (ValueIdx.ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (rhs_contr _ _).trans hk
    | ⟨1, _⟩ => exact rhs_col _ _)
  rw [el, er]

/-- A 5000 x 1 column broadcast along the 128 lanes reads, at (p, q), the column's entry of row p. -/
theorem column_lanes_apply (v : FVec Ideal S5000x1 .f32) (p : Fin 5000) (q : Fin 128) :
    broadcastTo S5000x128 v broadcasts_S5000x1_S5000x128 (ValueIdx.ix2 p q) = v (ValueIdx.ix2 p (0 : Fin 1)) := by
  refine broadcastTo_apply v _ (ValueIdx.ix2 p q) (ValueIdx.ix2 p (0 : Fin 1)) fun ax => ?_
  match ax with
  | ⟨0, _⟩ => show p.val = if (5000 : Nat) = 1 then 0 else p.val; rw [if_neg (by decide)]
  | ⟨1, _⟩ => show (0 : Nat) = if (1 : Nat) = 1 then 0 else q.val; rw [if_pos rfl]

/-- The body's arithmetic at row p, lane q of a block: the row of the features scaled by the row's normalisation,
    contracted with column q of the weight, plus the bias at q, clamped below at zero. -/
theorem payload_apply (a : Vec Ideal S5000x128 .f32) (n : Vec Ideal S5000x1 .f32) (w : Vec Ideal S128x128 .f32) (b : Vec Ideal S1x128 .f32)
    (p : Fin 5000) (q : Fin 128) :
    k1_pay1 (F := Ideal) a n w b (ValueIdx.ix2 p q)
      = max ((∑ k : Fin 128, (a (ValueIdx.ix2 p k) * n (ValueIdx.ix2 p (0 : Fin 1))) * w (ValueIdx.ix2 k q)) + b (ValueIdx.ix2 (0 : Fin 1) q)) 0 := by
  unfold k1_pay1
  rw [ValueIdx.maximumf_apply, ValueIdx.addf_apply, matmul_block_apply, ValueIdx.broadcastTo_1b_ab_apply, ValueIdx.broadcast_apply]
  simp only [shapeCast_self, ValueIdx.truncf_apply, ValueIdx.mulf_apply, column_lanes_apply]
  exact congrArg (max _) Ideal.ofBits_zero_f32

theorem reference_apply (x0 x1 : (⟨S1600000, .i32⟩ : BufTy).Contents (Elt Ideal)) (x3 : (⟨S1x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (r : Fin 100000) (q : Fin 128) :
    Cert.ReferenceIdeal.Read.val_main_v53 (F := Ideal) x0 x1 x3 x4 x5 x6 (ValueIdx.ix2 r q)
      = max ((∑ k : Fin 128, (Cert.ReferenceIdeal.Read.val_main_v45 (F := Ideal) x0 x1 x3 x4 (ValueIdx.ix2 r k)
              * Cert.ReferenceIdeal.Read.val_main_v46 (F := Ideal) x1 (ValueIdx.ix2 r (0 : Fin 1))) * x5 (ValueIdx.ix2 k q))
            + x6 (ValueIdx.ix1 q)) 0 := by
  rw [Cert.ReferenceIdeal.Read.val_main_v53_apply, Cert.ReferenceIdeal.Read.val_main_v52_apply]
  rw [Cert.ReferenceIdeal.Read.val_main_v49_apply]
  rw [Cert.ReferenceIdeal.Read.val_main_v51_apply, Cert.ReferenceIdeal.Read.val_main_v50_apply]
  rw [Cert.ReferenceIdeal.Read.val_main_call3_v0_apply, Cert.ReferenceIdeal.Read.val_main_call3_cst_apply]
  have el : ∀ k : Fin 128, Cert.ReferenceIdeal.Read.lidx_main_v49 (ValueIdx.ix2 r q) k = ValueIdx.ix2 r k :=
    fun k => funext fun a => Fin.ext (by match a with | ⟨0, _⟩ => rfl | ⟨1, _⟩ => rfl)
  have er : ∀ k : Fin 128, Cert.ReferenceIdeal.Read.ridx_main_v49 (ValueIdx.ix2 r q) k = ValueIdx.ix2 k q :=
    fun k => funext fun a => Fin.ext (by match a with | ⟨0, _⟩ => rfl | ⟨1, _⟩ => rfl)
  have en : ∀ k : Fin 128, Cert.ReferenceIdeal.Read.idx_main_v47 (ValueIdx.ix2 r k) = ValueIdx.ix2 r (0 : Fin 1) :=
    fun k => funext fun a => Fin.ext (by match a with | ⟨0, _⟩ => rfl | ⟨1, _⟩ => rfl)
  have eb : Cert.ReferenceIdeal.Read.idx_main_v50 (Cert.ReferenceIdeal.Read.idx_main_v51 (ValueIdx.ix2 r q)) = ValueIdx.ix1 q :=
    funext fun a => Fin.ext (by match a with | ⟨0, _⟩ => rfl)
  have hs : ∀ k : Fin 128,
      Cert.ReferenceIdeal.Read.val_main_v48 (F := Ideal) x0 x1 x3 x4 (Cert.ReferenceIdeal.Read.lidx_main_v49 (ValueIdx.ix2 r q) k)
          * x5 (Cert.ReferenceIdeal.Read.ridx_main_v49 (ValueIdx.ix2 r q) k)
        = Cert.ReferenceIdeal.Read.val_main_v45 (F := Ideal) x0 x1 x3 x4 (ValueIdx.ix2 r k)
            * Cert.ReferenceIdeal.Read.val_main_v46 (F := Ideal) x1 (ValueIdx.ix2 r (0 : Fin 1)) * x5 (ValueIdx.ix2 k q) := fun k => by
    rw [el k, er k, Cert.ReferenceIdeal.Read.val_main_v48_apply, Cert.ReferenceIdeal.Read.val_main_v47_apply, en k]
    rfl
  rw [eb, Finset.sum_congr rfl fun k _ => hs k]
  exact congrArg (max _) Ideal.ofBits_zero_f32

/-- A block entry is the reference's stage at the array's row, when the block's rows, normalisation entry, weight column
    and bias entry are the reference's at that row. -/
theorem point_value (a : Vec Ideal S5000x128 .f32) (n : Vec Ideal S5000x1 .f32) (w : Vec Ideal S128x128 .f32) (b : Vec Ideal S1x128 .f32)
    (x0 x1 : (⟨S1600000, .i32⟩ : BufTy).Contents (Elt Ideal)) (x3 : (⟨S1x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (p : Fin 5000) (q : Fin 128) (r : Fin 100000)
    (ha : ∀ k : Fin 128, a (ValueIdx.ix2 p k) = Cert.ReferenceIdeal.Read.val_main_v45 (F := Ideal) x0 x1 x3 x4 (ValueIdx.ix2 r k))
    (hn : n (ValueIdx.ix2 p (0 : Fin 1)) = Cert.ReferenceIdeal.Read.val_main_v46 (F := Ideal) x1 (ValueIdx.ix2 r (0 : Fin 1)))
    (hw : ∀ k : Fin 128, w (ValueIdx.ix2 k q) = x5 (ValueIdx.ix2 k q))
    (hb : b (ValueIdx.ix2 (0 : Fin 1) q) = x6 (ValueIdx.ix1 q)) :
    k1_pay1 (F := Ideal) a n w b (ValueIdx.ix2 p q) = Cert.ReferenceIdeal.Read.val_main_v53 (F := Ideal) x0 x1 x3 x4 x5 x6 (ValueIdx.ix2 r q) := by
  rw [payload_apply, reference_apply, hn, hb]
  exact congrArg (fun s => max (s + x6 (ValueIdx.ix1 q)) 0) (Finset.sum_congr rfl fun k _ => by rw [ha k, hw k])

/-! ## The grid: index maps, blocks, the cover -/

/-- The body's loads and its store are at offset (0, 0): the whole block. -/
theorem hz : (![0, 0] : Fin 2 → Nat) = fun _ => 0 := funext fun a => by fin_cases a <;> rfl

/-- The printed index maps over the 20 points: the features, the normalisation column and the result move one row
    block per point; the weight and the bias stay at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- An index of the result array is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

/-- Row r of the result lies in the block of point r / 5000: the 20 row blocks tile the array. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, e8, e9⟩ := index_facts ⟨(i 0).val / 5000, ht⟩
  have e8' : win1_4.index ⟨(i 0).val / 5000, ht⟩ (0 : Fin 2) = (i 0).val / 5000 := e8
  refine ⟨⟨(i 0).val / 5000, ht⟩, flush1_4 _, ?_⟩
  rw [mem_blk]
  intro a
  match a with
  | ⟨0, _⟩ => show win1_4.index ⟨(i 0).val / 5000, ht⟩ (0 : Fin 2) * 5000 ≤ (i 0).val ∧ (i 0).val < win1_4.index ⟨(i 0).val / 5000, ht⟩ (0 : Fin 2) * 5000 + 5000; rw [e8']; omega
  | ⟨1, _⟩ => show win1_4.index ⟨(i 0).val / 5000, ht⟩ (1 : Fin 2) * 128 ≤ (i 1).val ∧ (i 1).val < win1_4.index ⟨(i 0).val / 5000, ht⟩ (1 : Fin 2) * 128 + 128; rw [e9]; omega

/-! ## From blocks to the array -/

section Blocks
variable (V : (c : Dev nD) → (b : Ref sig .tc) → Buf (Elt Ideal) ((c : Thread nD τ).loc b))

/-- Row p of the features' block at point t is row 5000 t + p of the array. -/
theorem features_block (c : Dev nD) (t : Fin cfg1.N) (A : S100000x128.Idx → EReal) (hA : V c main_v41 = A)
    (p : Fin 5000) (k : Fin 128) (r : Fin 100000) (hr : r.val = t.val * 5000 + p.val) :
    (iblk1 (F := Ideal) V c 0 t : Vec Ideal S5000x128 .f32) (ValueIdx.ix2 p k) = A (ValueIdx.ix2 r k) := by
  obtain ⟨e0, e1, -⟩ := index_facts t
  show V c main_v41 (((cfg1.win 0).blk t).view.emb (ValueIdx.ix2 p k)) = A (ValueIdx.ix2 r k)
  rw [hA]
  refine congrArg A (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Row p of the normalisation column's block at point t is row 5000 t + p of the column. -/
theorem norm_block (c : Dev nD) (t : Fin cfg1.N) (N : S100000x1.Idx → EReal) (hN : V c main_v13 = N)
    (p : Fin 5000) (r : Fin 100000) (hr : r.val = t.val * 5000 + p.val) :
    (iblk1 (F := Ideal) V c 1 t : Vec Ideal S5000x1 .f32) (ValueIdx.ix2 p (0 : Fin 1)) = N (ValueIdx.ix2 r (0 : Fin 1)) := by
  obtain ⟨-, -, e2, e3, -⟩ := index_facts t
  show V c main_v13 (((cfg1.win 1).blk t).view.emb (ValueIdx.ix2 p (0 : Fin 1))) = N (ValueIdx.ix2 r (0 : Fin 1))
  rw [hN]
  refine congrArg N (funext fun a => Fin.ext ?_)
  match a with
  | ⟨0, _⟩ => show win1_1.index t (0 : Fin 2) * 5000 + 1 * p.val = r.val; rw [e2, hr]; omega
  | ⟨1, _⟩ => show win1_1.index t (1 : Fin 2) * 1 + 1 * 0 = 0; rw [e3]

/-- The weight's block at every point is the whole weight. -/
theorem weight_block (c : Dev nD) (t : Fin cfg1.N) (W : S128x128.Idx → EReal) (hW : V c main_arg5 = W)
    (k q : Fin 128) :
    (iblk1 (F := Ideal) V c 2 t : Vec Ideal S128x128 .f32) (ValueIdx.ix2 k q) = W (ValueIdx.ix2 k q) := by
  obtain ⟨-, -, -, -, e4, e5, -⟩ := index_facts t
  show V c main_arg5 (((cfg1.win 2).blk t).view.emb (ValueIdx.ix2 k q)) = W (ValueIdx.ix2 k q)
  rw [hW]
  refine congrArg W (funext fun a => Fin.ext ?_)
  match a with
  | ⟨0, _⟩ => show win1_2.index t (0 : Fin 2) * 128 + 1 * k.val = k.val; rw [e4]; omega
  | ⟨1, _⟩ => show win1_2.index t (1 : Fin 2) * 128 + 1 * q.val = q.val; rw [e5]; omega

/-- The bias row's block at every point is the whole row: the 128-vector reshaped to 1 x 128, read at lane q. -/
theorem bias_block (c : Dev nD) (t : Fin cfg1.N) (x6 : (⟨S128, .f32⟩ : BufTy).Contents (Elt Ideal))
    (hb : V c main_v42 = shapeCast S1x128 x6 shapeCasts_S128_S1x128) (q : Fin 128) :
    (iblk1 (F := Ideal) V c 3 t : Vec Ideal S1x128 .f32) (ValueIdx.ix2 (0 : Fin 1) q) = x6 (ValueIdx.ix1 q) := by
  obtain ⟨-, -, -, -, -, -, e6, e7, -⟩ := index_facts t
  show V c main_v42 (((cfg1.win 3).blk t).view.emb (ValueIdx.ix2 (0 : Fin 1) q)) = x6 (ValueIdx.ix1 q)
  rw [hb]
  refine Eq.trans (congrArg (shapeCast S1x128 x6 shapeCasts_S128_S1x128) (funext fun a => Fin.ext ?_)) (ValueIdx.shapeCast_a_1a_apply x6 shapeCasts_S128_S1x128 (0 : Fin 1) q)
  match a with
  | ⟨0, _⟩ => show win1_3.index t (0 : Fin 2) * 1 + 1 * 0 = 0; rw [e6]
  | ⟨1, _⟩ => show win1_3.index t (1 : Fin 2) * 128 + 1 * q.val = q.val; rw [e7]; omega

/-- What point t writes back is block t of any array G that the body's result matches row by row: row p of the block
    against row 5000 t + p of G. -/
theorem flushed_of_rows (c : Dev nD) (G : S100000x128.Idx → EReal) (t : Fin cfg1.N)
    (hrows : ∀ (p : Fin 5000) (q : Fin 128) (r : Fin 100000), r.val = t.val * 5000 + p.val →
      k1_pay1 (F := Ideal) (iblk1 V c 0 t) (iblk1 V c 1 t) (iblk1 V c 2 t) (iblk1 V c 3 t) (ValueIdx.ix2 p q) = G (ValueIdx.ix2 r q)) :
    (dat1 (F := Ideal) V c).flushed 4 t = ((cfg1.win 4).blk t).view.read (Elt Ideal) G := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S128x128) hz, View.ld_unit_zero (S := S1x128) hz]
  funext j
  obtain ⟨p, q, rfl⟩ : ∃ (p : Fin 5000) (q : Fin 128), j = ValueIdx.ix2 p q := ⟨j 0, j 1, ValueIdx.eq_ix2 j⟩
  have hN : t.val < 20 := lt_of_lt_of_eq t.isLt N_1
  have hp : p.val < 5000 := p.isLt
  have hr : t.val * 5000 + p.val < 100000 := by omega
  obtain ⟨-, -, -, -, -, -, -, -, e8, e9⟩ := index_facts t
  have hi : ((cfg1.win 4).blk t).view.emb (ValueIdx.ix2 p q) = ValueIdx.ix2 (⟨t.val * 5000 + p.val, hr⟩ : Fin 100000) q := by
    funext a; apply Fin.ext
    match a with
    | ⟨0, _⟩ => show win1_4.index t (0 : Fin 2) * 5000 + 1 * p.val = t.val * 5000 + p.val; rw [e8]; omega
    | ⟨1, _⟩ => show win1_4.index t (1 : Fin 2) * 128 + 1 * q.val = q.val; rw [e9]; omega
  show k1_pay1 (F := Ideal) (iblk1 V c 0 t) (iblk1 V c 1 t) (iblk1 V c 2 t) (iblk1 V c 3 t) (ValueIdx.ix2 p q)
    = G (((cfg1.win 4).blk t).view.emb (ValueIdx.ix2 p q))
  rw [hi]
  exact hrows p q ⟨t.val * 5000 + p.val, hr⟩ rfl

/-- What point t writes back is block t of the reference's stage. -/
theorem flushed_eq (c : Dev nD)
    (x0 x1 : (⟨S1600000, .i32⟩ : BufTy).Contents (Elt Ideal)) (x3 : (⟨S1x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (hagg : V c main_v41 = Cert.ReferenceIdeal.Read.val_main_v45 (F := Ideal) x0 x1 x3 x4)
    (hnd : V c main_v13 = Cert.ReferenceIdeal.Read.val_main_v46 (F := Ideal) x1)
    (hW : V c main_arg5 = x5)
    (hb : V c main_v42 = shapeCast S1x128 x6 shapeCasts_S128_S1x128) (t : Fin cfg1.N) :
    (dat1 (F := Ideal) V c).flushed 4 t
      = ((cfg1.win 4).blk t).view.read (Elt Ideal) (Cert.ReferenceIdeal.Read.val_main_v53 (F := Ideal) x0 x1 x3 x4 x5 x6) :=
  flushed_of_rows V c (Cert.ReferenceIdeal.Read.val_main_v53 (F := Ideal) x0 x1 x3 x4 x5 x6) t fun p q r hr =>
    point_value (iblk1 (F := Ideal) V c 0 t) (iblk1 (F := Ideal) V c 1 t) (iblk1 (F := Ideal) V c 2 t) (iblk1 (F := Ideal) V c 3 t)
      x0 x1 x3 x4 x5 x6 p q r
      (fun k => features_block V c t (Cert.ReferenceIdeal.Read.val_main_v45 (F := Ideal) x0 x1 x3 x4) hagg p k r hr)
      (norm_block V c t (Cert.ReferenceIdeal.Read.val_main_v46 (F := Ideal) x1) hnd p r hr)
      (fun k => weight_block V c t x5 hW k q)
      (bias_block V c t x6 hb q)

end Blocks

/-- Region 1's result array after the region, as the reference's stage `%53` of the arguments, given that the region's
    input arrays hold the reference's stages at entry. -/
theorem region_value (V : (c : Dev nD) → (b : Ref sig .tc) → Buf (Elt Ideal) ((c : Thread nD τ).loc b)) (c : Dev nD)
    (x0 x1 : (⟨S1600000, .i32⟩ : BufTy).Contents (Elt Ideal)) (x3 : (⟨S1x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (hagg : V c main_v41 = Cert.ReferenceIdeal.Read.val_main_v45 (F := Ideal) x0 x1 x3 x4)
    (hnd : V c main_v13 = Cert.ReferenceIdeal.Read.val_main_v46 (F := Ideal) x1)
    (hW : V c main_arg5 = x5)
    (hb : V c main_v42 = shapeCast S1x128 x6 shapeCasts_S128_S1x128) :
    (dat1 (F := Ideal) V c).arrAt 4 cfg1.N = Cert.ReferenceIdeal.Read.val_main_v53 (F := Ideal) x0 x1 x3 x4 x5 x6 :=
  (dat1 (F := Ideal) V c).arrAt_eq_of_cover 4 (Cert.ReferenceIdeal.Read.val_main_v53 (F := Ideal) x0 x1 x3 x4 x5 x6)
    (fun t _ => flushed_eq V c x0 x1 x3 x4 x5 x6 hagg hnd hW hb t) covered

end Cert.KernelIdeal.Layer1

end
-- ==== Proof.Region2.lean ====
/- The third dense layer's pallas_call, read as a value: the same kernel as the second layer's on the third layer's
   arrays. The result array ends holding max ((agg * nd) W + b, 0) index by index — the reference's third-layer stage. -/
import proofs.«115108_j46694884442368_1_alg».proof.Proof.Gen.KernelIdeal.Frame
import proofs.«115108_j46694884442368_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Layer2

open Cert.KernelIdeal Cert.KernelIdeal.Gen

/-! ## The matmul, the payload and the reference's stage at one index -/

/-- The block matmul's operand indices at output index j and contraction index q: the left operand is read at
    (row of j, q), the right at (q, lane of j) — one lemma per axis. -/
theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_contr (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block matmul into the zero accumulator at row p, lane q: the sum over the 128 contracted lanes. -/
theorem matmul_block_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ValueIdx.ix2 p q)
      = ∑ k : Fin 128, l (ValueIdx.ix2 p k) * r (ValueIdx.ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (rhs_contr _ _).trans hk
    | ⟨1, _⟩ => exact rhs_col _ _)
  rw [el, er]

/-- A 5000 x 1 column broadcast along the 128 lanes reads, at (p, q), the column's entry of row p. -/
theorem column_lanes_apply (v : FVec Ideal S5000x1 .f32) (p : Fin 5000) (q : Fin 128) :
    broadcastTo S5000x128 v broadcasts_S5000x1_S5000x128 (ValueIdx.ix2 p q) = v (ValueIdx.ix2 p (0 : Fin 1)) := by
  refine broadcastTo_apply v _ (ValueIdx.ix2 p q) (ValueIdx.ix2 p (0 : Fin 1)) fun ax => ?_
  match ax with
  | ⟨0, _⟩ => show p.val = if (5000 : Nat) = 1 then 0 else p.val; rw [if_neg (by decide)]
  | ⟨1, _⟩ => show (0 : Nat) = if (1 : Nat) = 1 then 0 else q.val; rw [if_pos rfl]

/-- The body's arithmetic at row p, lane q of a block: the row of the features scaled by the row's normalisation,
    contracted with column q of the weight, plus the bias at q, clamped below at zero. -/
theorem payload_apply (a : Vec Ideal S5000x128 .f32) (n : Vec Ideal S5000x1 .f32) (w : Vec Ideal S128x128 .f32) (b : Vec Ideal S1x128 .f32)
    (p : Fin 5000) (q : Fin 128) :
    k2_pay1 (F := Ideal) a n w b (ValueIdx.ix2 p q)
      = max ((∑ k : Fin 128, (a (ValueIdx.ix2 p k) * n (ValueIdx.ix2 p (0 : Fin 1))) * w (ValueIdx.ix2 k q)) + b (ValueIdx.ix2 (0 : Fin 1) q)) 0 := by
  unfold k2_pay1
  rw [ValueIdx.maximumf_apply, ValueIdx.addf_apply, matmul_block_apply, ValueIdx.broadcastTo_1b_ab_apply, ValueIdx.broadcast_apply]
  simp only [shapeCast_self, ValueIdx.truncf_apply, ValueIdx.mulf_apply, column_lanes_apply]
  exact congrArg (max _) Ideal.ofBits_zero_f32

theorem reference_apply (x0 x1 : (⟨S1600000, .i32⟩ : BufTy).Contents (Elt Ideal)) (x3 : (⟨S1x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
    (r : Fin 100000) (q : Fin 128) :
    Cert.ReferenceIdeal.Read.val_main_v74 (F := Ideal) x0 x1 x3 x4 x5 x6 x7 x8 (ValueIdx.ix2 r q)
      = max ((∑ k : Fin 128, (Cert.ReferenceIdeal.Read.val_main_v66 (F := Ideal) x0 x1 x3 x4 x5 x6 (ValueIdx.ix2 r k)
              * Cert.ReferenceIdeal.Read.val_main_v67 (F := Ideal) x1 (ValueIdx.ix2 r (0 : Fin 1))) * x7 (ValueIdx.ix2 k q))
            + x8 (ValueIdx.ix1 q)) 0 := by
  rw [Cert.ReferenceIdeal.Read.val_main_v74_apply, Cert.ReferenceIdeal.Read.val_main_v73_apply]
  rw [Cert.ReferenceIdeal.Read.val_main_v70_apply]
  rw [Cert.ReferenceIdeal.Read.val_main_v72_apply, Cert.ReferenceIdeal.Read.val_main_v71_apply]
  rw [Cert.ReferenceIdeal.Read.val_main_call4_v0_apply, Cert.ReferenceIdeal.Read.val_main_call4_cst_apply]
  have el : ∀ k : Fin 128, Cert.ReferenceIdeal.Read.lidx_main_v70 (ValueIdx.ix2 r q) k = ValueIdx.ix2 r k :=
    fun k => funext fun a => Fin.ext (by match a with | ⟨0, _⟩ => rfl | ⟨1, _⟩ => rfl)
  have er : ∀ k : Fin 128, Cert.ReferenceIdeal.Read.ridx_main_v70 (ValueIdx.ix2 r q) k = ValueIdx.ix2 k q :=
    fun k => funext fun a => Fin.ext (by match a with | ⟨0, _⟩ => rfl | ⟨1, _⟩ => rfl)
  have en : ∀ k : Fin 128, Cert.ReferenceIdeal.Read.idx_main_v68 (ValueIdx.ix2 r k) = ValueIdx.ix2 r (0 : Fin 1) :=
    fun k => funext fun a => Fin.ext (by match a with | ⟨0, _⟩ => rfl | ⟨1, _⟩ => rfl)
  have eb : Cert.ReferenceIdeal.Read.idx_main_v71 (Cert.ReferenceIdeal.Read.idx_main_v72 (ValueIdx.ix2 r q)) = ValueIdx.ix1 q :=
    funext fun a => Fin.ext (by match a with | ⟨0, _⟩ => rfl)
  have hs : ∀ k : Fin 128,
      Cert.ReferenceIdeal.Read.val_main_v69 (F := Ideal) x0 x1 x3 x4 x5 x6 (Cert.ReferenceIdeal.Read.lidx_main_v70 (ValueIdx.ix2 r q) k)
          * x7 (Cert.ReferenceIdeal.Read.ridx_main_v70 (ValueIdx.ix2 r q) k)
        = Cert.ReferenceIdeal.Read.val_main_v66 (F := Ideal) x0 x1 x3 x4 x5 x6 (ValueIdx.ix2 r k)
            * Cert.ReferenceIdeal.Read.val_main_v67 (F := Ideal) x1 (ValueIdx.ix2 r (0 : Fin 1)) * x7 (ValueIdx.ix2 k q) := fun k => by
    rw [el k, er k, Cert.ReferenceIdeal.Read.val_main_v69_apply, Cert.ReferenceIdeal.Read.val_main_v68_apply, en k]
    rfl
  rw [eb, Finset.sum_congr rfl fun k _ => hs k]
  exact congrArg (max _) Ideal.ofBits_zero_f32

/-- A block entry is the reference's stage at the array's row, when the block's rows, normalisation entry, weight column
    and bias entry are the reference's at that row. -/
theorem point_value (a : Vec Ideal S5000x128 .f32) (n : Vec Ideal S5000x1 .f32) (w : Vec Ideal S128x128 .f32) (b : Vec Ideal S1x128 .f32)
    (x0 x1 : (⟨S1600000, .i32⟩ : BufTy).Contents (Elt Ideal)) (x3 : (⟨S1x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
    (p : Fin 5000) (q : Fin 128) (r : Fin 100000)
    (ha : ∀ k : Fin 128, a (ValueIdx.ix2 p k) = Cert.ReferenceIdeal.Read.val_main_v66 (F := Ideal) x0 x1 x3 x4 x5 x6 (ValueIdx.ix2 r k))
    (hn : n (ValueIdx.ix2 p (0 : Fin 1)) = Cert.ReferenceIdeal.Read.val_main_v67 (F := Ideal) x1 (ValueIdx.ix2 r (0 : Fin 1)))
    (hw : ∀ k : Fin 128, w (ValueIdx.ix2 k q) = x7 (ValueIdx.ix2 k q))
    (hb : b (ValueIdx.ix2 (0 : Fin 1) q) = x8 (ValueIdx.ix1 q)) :
    k2_pay1 (F := Ideal) a n w b (ValueIdx.ix2 p q) = Cert.ReferenceIdeal.Read.val_main_v74 (F := Ideal) x0 x1 x3 x4 x5 x6 x7 x8 (ValueIdx.ix2 r q) := by
  rw [payload_apply, reference_apply, hn, hb]
  exact congrArg (fun s => max (s + x8 (ValueIdx.ix1 q)) 0) (Finset.sum_congr rfl fun k _ => by rw [ha k, hw k])

/-! ## The grid: index maps, blocks, the cover -/

/-- The body's loads and its store are at offset (0, 0): the whole block. -/
theorem hz : (![0, 0] : Fin 2 → Nat) = fun _ => 0 := funext fun a => by fin_cases a <;> rfl

/-- The printed index maps over the 20 points: the features, the normalisation column and the result move one row
    block per point; the weight and the bias stay at block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- An index of the result array is in point t's block iff each coordinate is in the block's range on its axis. -/
theorem mem_blk (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v58).slice (win2_4.rect t)).set ↔ _
  rw [View.set_slice_whole, Rect.mem_set_unit]
  exact Iff.rfl

/-- Row r of the result lies in the block of point r / 5000: the 20 row blocks tile the array. -/
theorem covered (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨-, -, -, -, -, -, -, -, e8, e9⟩ := index_facts ⟨(i 0).val / 5000, ht⟩
  have e8' : win2_4.index ⟨(i 0).val / 5000, ht⟩ (0 : Fin 2) = (i 0).val / 5000 := e8
  refine ⟨⟨(i 0).val / 5000, ht⟩, flush2_4 _, ?_⟩
  rw [mem_blk]
  intro a
  match a with
  | ⟨0, _⟩ => show win2_4.index ⟨(i 0).val / 5000, ht⟩ (0 : Fin 2) * 5000 ≤ (i 0).val ∧ (i 0).val < win2_4.index ⟨(i 0).val / 5000, ht⟩ (0 : Fin 2) * 5000 + 5000; rw [e8']; omega
  | ⟨1, _⟩ => show win2_4.index ⟨(i 0).val / 5000, ht⟩ (1 : Fin 2) * 128 ≤ (i 1).val ∧ (i 1).val < win2_4.index ⟨(i 0).val / 5000, ht⟩ (1 : Fin 2) * 128 + 128; rw [e9]; omega

/-! ## From blocks to the array -/

section Blocks
variable (V : (c : Dev nD) → (b : Ref sig .tc) → Buf (Elt Ideal) ((c : Thread nD τ).loc b))

/-- Row p of the features' block at point t is row 5000 t + p of the array. -/
theorem features_block (c : Dev nD) (t : Fin cfg2.N) (A : S100000x128.Idx → EReal) (hA : V c main_v56 = A)
    (p : Fin 5000) (k : Fin 128) (r : Fin 100000) (hr : r.val = t.val * 5000 + p.val) :
    (iblk2 (F := Ideal) V c 0 t : Vec Ideal S5000x128 .f32) (ValueIdx.ix2 p k) = A (ValueIdx.ix2 r k) := by
  obtain ⟨e0, e1, -⟩ := index_facts t
  show V c main_v56 (((cfg2.win 0).blk t).view.emb (ValueIdx.ix2 p k)) = A (ValueIdx.ix2 r k)
  rw [hA]
  refine congrArg A (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Row p of the normalisation column's block at point t is row 5000 t + p of the column. -/
theorem norm_block (c : Dev nD) (t : Fin cfg2.N) (N : S100000x1.Idx → EReal) (hN : V c main_v13 = N)
    (p : Fin 5000) (r : Fin 100000) (hr : r.val = t.val * 5000 + p.val) :
    (iblk2 (F := Ideal) V c 1 t : Vec Ideal S5000x1 .f32) (ValueIdx.ix2 p (0 : Fin 1)) = N (ValueIdx.ix2 r (0 : Fin 1)) := by
  obtain ⟨-, -, e2, e3, -⟩ := index_facts t
  show V c main_v13 (((cfg2.win 1).blk t).view.emb (ValueIdx.ix2 p (0 : Fin 1))) = N (ValueIdx.ix2 r (0 : Fin 1))
  rw [hN]
  refine congrArg N (funext fun a => Fin.ext ?_)
  match a with
  | ⟨0, _⟩ => show win2_1.index t (0 : Fin 2) * 5000 + 1 * p.val = r.val; rw [e2, hr]; omega
  | ⟨1, _⟩ => show win2_1.index t (1 : Fin 2) * 1 + 1 * 0 = 0; rw [e3]

/-- The weight's block at every point is the whole weight. -/
theorem weight_block (c : Dev nD) (t : Fin cfg2.N) (W : S128x128.Idx → EReal) (hW : V c main_arg7 = W)
    (k q : Fin 128) :
    (iblk2 (F := Ideal) V c 2 t : Vec Ideal S128x128 .f32) (ValueIdx.ix2 k q) = W (ValueIdx.ix2 k q) := by
  obtain ⟨-, -, -, -, e4, e5, -⟩ := index_facts t
  show V c main_arg7 (((cfg2.win 2).blk t).view.emb (ValueIdx.ix2 k q)) = W (ValueIdx.ix2 k q)
  rw [hW]
  refine congrArg W (funext fun a => Fin.ext ?_)
  match a with
  | ⟨0, _⟩ => show win2_2.index t (0 : Fin 2) * 128 + 1 * k.val = k.val; rw [e4]; omega
  | ⟨1, _⟩ => show win2_2.index t (1 : Fin 2) * 128 + 1 * q.val = q.val; rw [e5]; omega

/-- The bias row's block at every point is the whole row: the 128-vector reshaped to 1 x 128, read at lane q. -/
theorem bias_block (c : Dev nD) (t : Fin cfg2.N) (x8 : (⟨S128, .f32⟩ : BufTy).Contents (Elt Ideal))
    (hb : V c main_v57 = shapeCast S1x128 x8 shapeCasts_S128_S1x128) (q : Fin 128) :
    (iblk2 (F := Ideal) V c 3 t : Vec Ideal S1x128 .f32) (ValueIdx.ix2 (0 : Fin 1) q) = x8 (ValueIdx.ix1 q) := by
  obtain ⟨-, -, -, -, -, -, e6, e7, -⟩ := index_facts t
  show V c main_v57 (((cfg2.win 3).blk t).view.emb (ValueIdx.ix2 (0 : Fin 1) q)) = x8 (ValueIdx.ix1 q)
  rw [hb]
  refine Eq.trans (congrArg (shapeCast S1x128 x8 shapeCasts_S128_S1x128) (funext fun a => Fin.ext ?_)) (ValueIdx.shapeCast_a_1a_apply x8 shapeCasts_S128_S1x128 (0 : Fin 1) q)
  match a with
  | ⟨0, _⟩ => show win2_3.index t (0 : Fin 2) * 1 + 1 * 0 = 0; rw [e6]
  | ⟨1, _⟩ => show win2_3.index t (1 : Fin 2) * 128 + 1 * q.val = q.val; rw [e7]; omega

/-- What point t writes back is block t of any array G that the body's result matches row by row: row p of the block
    against row 5000 t + p of G. -/
theorem flushed_of_rows (c : Dev nD) (G : S100000x128.Idx → EReal) (t : Fin cfg2.N)
    (hrows : ∀ (p : Fin 5000) (q : Fin 128) (r : Fin 100000), r.val = t.val * 5000 + p.val →
      k2_pay1 (F := Ideal) (iblk2 V c 0 t) (iblk2 V c 1 t) (iblk2 V c 2 t) (iblk2 V c 3 t) (ValueIdx.ix2 p q) = G (ValueIdx.ix2 r q)) :
    (dat2 (F := Ideal) V c).flushed 4 t = ((cfg2.win 4).blk t).view.read (Elt Ideal) G := by
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz, View.ld_unit_zero (S := S128x128) hz, View.ld_unit_zero (S := S1x128) hz]
  funext j
  obtain ⟨p, q, rfl⟩ : ∃ (p : Fin 5000) (q : Fin 128), j = ValueIdx.ix2 p q := ⟨j 0, j 1, ValueIdx.eq_ix2 j⟩
  have hN : t.val < 20 := lt_of_lt_of_eq t.isLt N_2
  have hp : p.val < 5000 := p.isLt
  have hr : t.val * 5000 + p.val < 100000 := by omega
  obtain ⟨-, -, -, -, -, -, -, -, e8, e9⟩ := index_facts t
  have hi : ((cfg2.win 4).blk t).view.emb (ValueIdx.ix2 p q) = ValueIdx.ix2 (⟨t.val * 5000 + p.val, hr⟩ : Fin 100000) q := by
    funext a; apply Fin.ext
    match a with
    | ⟨0, _⟩ => show win2_4.index t (0 : Fin 2) * 5000 + 1 * p.val = t.val * 5000 + p.val; rw [e8]; omega
    | ⟨1, _⟩ => show win2_4.index t (1 : Fin 2) * 128 + 1 * q.val = q.val; rw [e9]; omega
  show k2_pay1 (F := Ideal) (iblk2 V c 0 t) (iblk2 V c 1 t) (iblk2 V c 2 t) (iblk2 V c 3 t) (ValueIdx.ix2 p q)
    = G (((cfg2.win 4).blk t).view.emb (ValueIdx.ix2 p q))
  rw [hi]
  exact hrows p q ⟨t.val * 5000 + p.val, hr⟩ rfl

/-- What point t writes back is block t of the reference's stage. -/
theorem flushed_eq (c : Dev nD)
    (x0 x1 : (⟨S1600000, .i32⟩ : BufTy).Contents (Elt Ideal)) (x3 : (⟨S1x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
    (hagg : V c main_v56 = Cert.ReferenceIdeal.Read.val_main_v66 (F := Ideal) x0 x1 x3 x4 x5 x6)
    (hnd : V c main_v13 = Cert.ReferenceIdeal.Read.val_main_v67 (F := Ideal) x1)
    (hW : V c main_arg7 = x7)
    (hb : V c main_v57 = shapeCast S1x128 x8 shapeCasts_S128_S1x128) (t : Fin cfg2.N) :
    (dat2 (F := Ideal) V c).flushed 4 t
      = ((cfg2.win 4).blk t).view.read (Elt Ideal) (Cert.ReferenceIdeal.Read.val_main_v74 (F := Ideal) x0 x1 x3 x4 x5 x6 x7 x8) :=
  flushed_of_rows V c (Cert.ReferenceIdeal.Read.val_main_v74 (F := Ideal) x0 x1 x3 x4 x5 x6 x7 x8) t fun p q r hr =>
    point_value (iblk2 (F := Ideal) V c 0 t) (iblk2 (F := Ideal) V c 1 t) (iblk2 (F := Ideal) V c 2 t) (iblk2 (F := Ideal) V c 3 t)
      x0 x1 x3 x4 x5 x6 x7 x8 p q r
      (fun k => features_block V c t (Cert.ReferenceIdeal.Read.val_main_v66 (F := Ideal) x0 x1 x3 x4 x5 x6) hagg p k r hr)
      (norm_block V c t (Cert.ReferenceIdeal.Read.val_main_v67 (F := Ideal) x1) hnd p r hr)
      (fun k => weight_block V c t x7 hW k q)
      (bias_block V c t x8 hb q)

end Blocks

/-- Region 2's result array after the region, as the reference's stage `%74` of the arguments, given that the region's
    input arrays hold the reference's stages at entry. -/
theorem region_value (V : (c : Dev nD) → (b : Ref sig .tc) → Buf (Elt Ideal) ((c : Thread nD τ).loc b)) (c : Dev nD)
    (x0 x1 : (⟨S1600000, .i32⟩ : BufTy).Contents (Elt Ideal)) (x3 : (⟨S1x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
    (hagg : V c main_v56 = Cert.ReferenceIdeal.Read.val_main_v66 (F := Ideal) x0 x1 x3 x4 x5 x6)
    (hnd : V c main_v13 = Cert.ReferenceIdeal.Read.val_main_v67 (F := Ideal) x1)
    (hW : V c main_arg7 = x7)
    (hb : V c main_v57 = shapeCast S1x128 x8 shapeCasts_S128_S1x128) :
    (dat2 (F := Ideal) V c).arrAt 4 cfg2.N = Cert.ReferenceIdeal.Read.val_main_v74 (F := Ideal) x0 x1 x3 x4 x5 x6 x7 x8 :=
  (dat2 (F := Ideal) V c).arrAt_eq_of_cover 4 (Cert.ReferenceIdeal.Read.val_main_v74 (F := Ideal) x0 x1 x3 x4 x5 x6 x7 x8)
    (fun t _ => flushed_eq V c x0 x1 x3 x4 x5 x6 x7 x8 hagg hnd hW hb t) covered

end Cert.KernelIdeal.Layer2

end
-- ==== Proof.Chain.lean ====
/- The run's boundaries after region 0's entry, each buffer a later item reads named as the reference's stage of
   the arguments. A region leaves its input arrays as it found them and its result array at the layer's value (the
   region modules); every other buffer it does not touch. Between two regions the host scales the layer's output by
   the source normalisation, gathers it along src and sums along dst, and reshapes the next bias: operation for
   operation the reference's stages. After the last region the host pools the node features per graph (a
   scatter-add along graph_ids divided by the clamped node counts) and applies the classifier: again the
   reference's own operations. So the result buffer ends at the reference's last stage of the arguments. Read
   stretch by stretch: what a stretch reads of the boundary before it is named first (a layer's output, a
   scatter-add's value is never opened), then the stretch's own operations are compared. -/
import proofs.«115108_j46694884442368_1_alg».proof.Proof.Gen.KernelIdeal.Frame
import proofs.«115108_j46694884442368_1_alg».proof.Proof.Gen.ReferenceIdeal.Read
import proofs.«115108_j46694884442368_1_alg».proof.Proof.Casts
import proofs.«115108_j46694884442368_1_alg».proof.Proof.Args
import proofs.«115108_j46694884442368_1_alg».proof.Proof.Entry0
import proofs.«115108_j46694884442368_1_alg».proof.Proof.Region0
import proofs.«115108_j46694884442368_1_alg».proof.Proof.Region1
import proofs.«115108_j46694884442368_1_alg».proof.Proof.Region2
import proofs.«115108_j46694884442368_1_alg».proof.Proof.KernelRun
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen

variable (m : (ℓ : Loc nD τ sig) → Buf (Elt Ideal) ℓ) (ρ : Dev nD → PrngReg)

/-- The clamp of the per-graph node counts carries its values along its buffers' type equations (a count vector's, a
    scalar's): the identity each time. -/
local macro "drop_transports" : tactic =>
  `(tactic| ((repeat rw [Cert.Casts.ofBuf_self main_v62 rfl (by decide) rfl]); (repeat rw [Cert.Casts.ofBuf_self main_cst_17 rfl (by decide) rfl])))

/-! ## Region 0's exit -/

/-- The first layer's output. -/
theorem w6_v28 (c : Dev nD) : W6 m ρ c (Proc.devRef .tc main_v28) = Cert.ReferenceIdeal.Read.val_main_v32 (F := Ideal) (m ((c : Thread nD τ).loc main_arg0)) (m ((c : Thread nD τ).loc main_arg1)) (m ((c : Thread nD τ).loc main_arg3)) (m ((c : Thread nD τ).loc main_arg4)) :=
  (W6_arr m ρ c 4).trans (Layer0.region_value (V5 m ρ) c _ _ _ _ (w5_v26 m ρ c) (w5_v13 m ρ c) (Args.at5_arg3 m ρ c) (w5_v27 m ρ c))

/-- The destination normalisation column is an input of the region: unchanged. -/
theorem w6_v13 (c : Dev nD) : W6 m ρ c (Proc.devRef .tc main_v13) = Cert.ReferenceIdeal.Read.val_main_v26 (F := Ideal) (m ((c : Thread nD τ).loc main_arg1)) :=
  (W6_arr m ρ c 1).trans (((dat0 (V5 m ρ) c).arrAt_in 1 rfl _).trans ((A_eq0 (V5 m ρ) c 1).trans (w5_v13 m ρ c)))

/-! ## Region 1's entry -/

set_option maxHeartbeats 2000000 in
/-- The second layer's aggregated messages: the first layer's output times the source normalisation, gathered
    along src and summed along dst. -/
theorem w7_v41 (c : Dev nD) : W7 m ρ c (Proc.devRef .tc main_v41) = Cert.ReferenceIdeal.Read.val_main_v45 (F := Ideal) (m ((c : Thread nD τ).loc main_arg0)) (m ((c : Thread nD τ).loc main_arg1)) (m ((c : Thread nD τ).loc main_arg3)) (m ((c : Thread nD τ).loc main_arg4)) := by
  have e28 := w6_v28 m ρ c
  have e9 := (W6_of_ne m ρ c main_v9 (by decide)).trans (w5_v9 m ρ c)
  have e0 := (W6_of_ne m ρ c main_arg0 (by decide)).trans (Args.at5_arg0 m ρ c)
  have e1 := (W6_of_ne m ρ c main_arg1 (by decide)).trans (Args.at5_arg1 m ρ c)
  show StableHlo.after hostOps1 (W6 m ρ c) (Proc.devRef .tc main_v41) = _
  generalize W6 m ρ c = X at e28 e9 e0 e1 ⊢
  after_results
  rw [e28, e9, e0, e1]
  unfold Cert.ReferenceIdeal.Read.val_main_v45 Cert.ReferenceIdeal.Read.val_main_v42 Cert.ReferenceIdeal.Read.val_main_v35 Cert.ReferenceIdeal.Read.val_main_v34 Cert.ReferenceIdeal.Read.val_main_v33 Cert.ReferenceIdeal.Read.val_main_v43 Cert.ReferenceIdeal.Read.val_main_cst_10 Cert.ReferenceIdeal.Read.val_main_v44 Cert.ReferenceIdeal.Read.val_main_v41 Cert.ReferenceIdeal.Read.val_main_v40 Cert.ReferenceIdeal.Read.val_main_v39 Cert.ReferenceIdeal.Read.val_main_v38 Cert.ReferenceIdeal.Read.val_main_v37 Cert.ReferenceIdeal.Read.val_main_v36 Cert.ReferenceIdeal.Read.val_main_c_8 Cert.ReferenceIdeal.Read.val_main_c_9
  generalize Cert.ReferenceIdeal.Read.val_main_v32 (F := Ideal) (m ((c : Thread nD τ).loc main_arg0)) (m ((c : Thread nD τ).loc main_arg1)) (m ((c : Thread nD τ).loc main_arg3)) (m ((c : Thread nD τ).loc main_arg4)) = h
  generalize Cert.ReferenceIdeal.Read.val_main_v9 (F := Ideal) (m ((c : Thread nD τ).loc main_arg0)) = n
  rfl

/-- The destination normalisation column, which the reference broadcasts anew for this layer. -/
theorem w7_v13 (c : Dev nD) : W7 m ρ c (Proc.devRef .tc main_v13) = Cert.ReferenceIdeal.Read.val_main_v46 (F := Ideal) (m ((c : Thread nD τ).loc main_arg1)) := by
  have e := w6_v13 m ρ c
  show StableHlo.after hostOps1 (W6 m ρ c) (Proc.devRef .tc main_v13) = _
  generalize W6 m ρ c = X at e ⊢
  after_results
  exact e

/-- The second bias as a row. -/
theorem w7_v42 (c : Dev nD) : W7 m ρ c (Proc.devRef .tc main_v42) = shapeCast S1x128 (m ((c : Thread nD τ).loc main_arg6)) shapeCasts_S128_S1x128 := by
  have e := (W6_of_ne m ρ c main_arg6 (by decide)).trans (Args.at5_arg6 m ρ c)
  show StableHlo.after hostOps1 (W6 m ρ c) (Proc.devRef .tc main_v42) = _
  generalize W6 m ρ c = X at e ⊢
  after_results
  rw [e]
  rfl

theorem w7_v9 (c : Dev nD) : W7 m ρ c (Proc.devRef .tc main_v9) = Cert.ReferenceIdeal.Read.val_main_v9 (F := Ideal) (m ((c : Thread nD τ).loc main_arg0)) := by
  have e := (W6_of_ne m ρ c main_v9 (by decide)).trans (w5_v9 m ρ c)
  show StableHlo.after hostOps1 (W6 m ρ c) (Proc.devRef .tc main_v9) = _
  generalize W6 m ρ c = X at e ⊢
  after_results
  exact e

/-! ## Region 1's exit -/

/-- The second layer's output. -/
theorem w8_v43 (c : Dev nD) : W8 m ρ c (Proc.devRef .tc main_v43) = Cert.ReferenceIdeal.Read.val_main_v53 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W8_arr m ρ c 4).trans (Layer1.region_value (V7 m ρ) c _ _ _ _ _ _ (w7_v41 m ρ c) (w7_v13 m ρ c) (Args.at7_arg5 m ρ c) (w7_v42 m ρ c))

theorem w8_v13 (c : Dev nD) : W8 m ρ c (Proc.devRef .tc main_v13) = Cert.ReferenceIdeal.Read.val_main_v46 (F := Ideal) (m ((c : Thread nD τ).loc main_arg1)) :=
  (W8_arr m ρ c 1).trans (((dat1 (V7 m ρ) c).arrAt_in 1 rfl _).trans ((A_eq1 (V7 m ρ) c 1).trans (w7_v13 m ρ c)))

/-! ## Region 2's entry -/

set_option maxHeartbeats 2000000 in
/-- The third layer's aggregated messages. -/
theorem w9_v56 (c : Dev nD) : W9 m ρ c (Proc.devRef .tc main_v56) = Cert.ReferenceIdeal.Read.val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have e43 := w8_v43 m ρ c
  have e9 := (W8_of_ne m ρ c main_v9 (by decide)).trans (w7_v9 m ρ c)
  have e0 := (W8_of_ne m ρ c main_arg0 (by decide)).trans (Args.at7_arg0 m ρ c)
  have e1 := (W8_of_ne m ρ c main_arg1 (by decide)).trans (Args.at7_arg1 m ρ c)
  show StableHlo.after hostOps2 (W8 m ρ c) (Proc.devRef .tc main_v56) = _
  generalize W8 m ρ c = X at e43 e9 e0 e1 ⊢
  after_results
  rw [e43, e9, e0, e1]
  unfold Cert.ReferenceIdeal.Read.val_main_v66 Cert.ReferenceIdeal.Read.val_main_v63 Cert.ReferenceIdeal.Read.val_main_v56 Cert.ReferenceIdeal.Read.val_main_v55 Cert.ReferenceIdeal.Read.val_main_v54 Cert.ReferenceIdeal.Read.val_main_v64 Cert.ReferenceIdeal.Read.val_main_cst_13 Cert.ReferenceIdeal.Read.val_main_v65 Cert.ReferenceIdeal.Read.val_main_v62 Cert.ReferenceIdeal.Read.val_main_v61 Cert.ReferenceIdeal.Read.val_main_v60 Cert.ReferenceIdeal.Read.val_main_v59 Cert.ReferenceIdeal.Read.val_main_v58 Cert.ReferenceIdeal.Read.val_main_v57 Cert.ReferenceIdeal.Read.val_main_c_11 Cert.ReferenceIdeal.Read.val_main_c_12
  generalize Cert.ReferenceIdeal.Read.val_main_v53 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) = h
  generalize Cert.ReferenceIdeal.Read.val_main_v9 (F := Ideal) (m ((c : Thread nD τ).loc main_arg0)) = n
  rfl

theorem w9_v13 (c : Dev nD) : W9 m ρ c (Proc.devRef .tc main_v13) = Cert.ReferenceIdeal.Read.val_main_v67 (F := Ideal) (m ((c : Thread nD τ).loc main_arg1)) := by
  have e := w8_v13 m ρ c
  show StableHlo.after hostOps2 (W8 m ρ c) (Proc.devRef .tc main_v13) = _
  generalize W8 m ρ c = X at e ⊢
  after_results
  exact e

/-- The third bias as a row. -/
theorem w9_v57 (c : Dev nD) : W9 m ρ c (Proc.devRef .tc main_v57) = shapeCast S1x128 (m ((c : Thread nD τ).loc main_arg8)) shapeCasts_S128_S1x128 := by
  have e := (W8_of_ne m ρ c main_arg8 (by decide)).trans (Args.at7_arg8 m ρ c)
  show StableHlo.after hostOps2 (W8 m ρ c) (Proc.devRef .tc main_v57) = _
  generalize W8 m ρ c = X at e ⊢
  after_results
  rw [e]
  rfl

/-! ## Region 2's exit -/

/-- The third layer's output. -/
theorem w10_v58 (c : Dev nD) : W10 m ρ c (Proc.devRef .tc main_v58) = Cert.ReferenceIdeal.Read.val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W10_arr m ρ c 4).trans (Layer2.region_value (V9 m ρ) c _ _ _ _ _ _ _ _ (w9_v56 m ρ c) (w9_v13 m ρ c) (Args.at9_arg7 m ρ c) (w9_v57 m ρ c))

/-! ## The pooling: per-graph node counts and feature sums -/

/-- The node counts: ones summed along graph_ids. -/
theorem w11_v62 (c : Dev nD) : W11 m ρ c (Proc.devRef .tc main_v62) = Cert.ReferenceIdeal.Read.val_main_v78 (F := Ideal) (m ((c : Thread nD τ).loc main_arg2)) := by
  have e2 := Args.at10_arg2 m ρ c
  show StableHlo.after hostOps3 (W10 m ρ c) (Proc.devRef .tc main_v62) = _
  generalize W10 m ρ c = X at e2 ⊢
  after_results
  rw [e2]
  rfl

theorem w11_cst17 (c : Dev nD) : W11 m ρ c (Proc.devRef .tc main_cst_17) = Cert.ReferenceIdeal.Read.val_main_cst_17 (F := Ideal) := by
  show StableHlo.after hostOps3 (W10 m ρ c) (Proc.devRef .tc main_cst_17) = _
  generalize W10 m ρ c = X
  after_results
  rfl

set_option maxHeartbeats 2000000 in
/-- The feature sums: the third layer's output summed along graph_ids. -/
theorem w11_v65 (c : Dev nD) : W11 m ρ c (Proc.devRef .tc main_v65) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e58 := w10_v58 m ρ c
  have e2 := Args.at10_arg2 m ρ c
  show StableHlo.after hostOps3 (W10 m ρ c) (Proc.devRef .tc main_v65) = _
  generalize W10 m ρ c = X at e58 e2 ⊢
  after_results
  rw [e58, e2]
  unfold Cert.ReferenceIdeal.Read.val_main_v81 Cert.ReferenceIdeal.Read.val_main_v79 Cert.ReferenceIdeal.Read.val_main_cst_16 Cert.ReferenceIdeal.Read.val_main_v80
  generalize Cert.ReferenceIdeal.Read.val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = h
  rfl

theorem w11_arg9 (c : Dev nD) : W11 m ρ c (Proc.devRef .tc main_arg9) = (m ((c : Thread nD τ).loc main_arg9)) := by
  have e := Args.at10_arg9 m ρ c
  show StableHlo.after hostOps3 (W10 m ρ c) (Proc.devRef .tc main_arg9) = _
  generalize W10 m ρ c = X at e ⊢
  after_results
  exact e

theorem w11_arg10 (c : Dev nD) : W11 m ρ c (Proc.devRef .tc main_arg10) = (m ((c : Thread nD τ).loc main_arg10)) := by
  have e := Args.at10_arg10 m ρ c
  show StableHlo.after hostOps3 (W10 m ρ c) (Proc.devRef .tc main_arg10) = _
  generalize W10 m ρ c = X at e ⊢
  after_results
  exact e

/-! ## The clamp of the node counts -/

theorem w12_v66 (c : Dev nD) : W12 m ρ c (Proc.devRef .tc main_v66) = Cert.ReferenceIdeal.Read.val_main_v82 (F := Ideal) (m ((c : Thread nD τ).loc main_arg2)) := by
  have e62 := w11_v62 m ρ c
  have ec := w11_cst17 m ρ c
  show StableHlo.after hostOps3_1 (W11 m ρ c) (Proc.devRef .tc main_v66) = _
  generalize W11 m ρ c = X at e62 ec ⊢
  after_results
  rw [e62, ec]
  unfold Cert.ReferenceIdeal.Read.val_main_v82 Cert.ReferenceIdeal.Read.val_main_call5_v1 Cert.ReferenceIdeal.Read.val_main_call5_v0
  generalize Cert.ReferenceIdeal.Read.val_main_v78 (F := Ideal) (m ((c : Thread nD τ).loc main_arg2)) = b
  generalize Cert.ReferenceIdeal.Read.val_main_cst_17 (F := Ideal) = k
  drop_transports
  all_goals rfl

theorem w12_v65 (c : Dev nD) : W12 m ρ c (Proc.devRef .tc main_v65) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e := w11_v65 m ρ c
  show StableHlo.after hostOps3_1 (W11 m ρ c) (Proc.devRef .tc main_v65) = _
  generalize W11 m ρ c = X at e ⊢
  after_results
  exact e

theorem w12_arg9 (c : Dev nD) : W12 m ρ c (Proc.devRef .tc main_arg9) = (m ((c : Thread nD τ).loc main_arg9)) := by
  have e := w11_arg9 m ρ c
  show StableHlo.after hostOps3_1 (W11 m ρ c) (Proc.devRef .tc main_arg9) = _
  generalize W11 m ρ c = X at e ⊢
  after_results
  exact e

theorem w12_arg10 (c : Dev nD) : W12 m ρ c (Proc.devRef .tc main_arg10) = (m ((c : Thread nD τ).loc main_arg10)) := by
  have e := w11_arg10 m ρ c
  show StableHlo.after hostOps3_1 (W11 m ρ c) (Proc.devRef .tc main_arg10) = _
  generalize W11 m ρ c = X at e ⊢
  after_results
  exact e

/-! ## The result -/

set_option maxHeartbeats 2000000 in
/-- The result buffer after the last host stretch: the per-graph means through the classifier. -/
theorem w13_v73 (c : Dev nD) : W13 m ρ c (Proc.devRef .tc main_v73) = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have e65 := w12_v65 m ρ c
  have e66 := w12_v66 m ρ c
  have e9 := w12_arg9 m ρ c
  have e10 := w12_arg10 m ρ c
  show StableHlo.after hostOps3_2 (W12 m ρ c) (Proc.devRef .tc main_v73) = _
  generalize W12 m ρ c = X at e65 e66 e9 e10 ⊢
  after_results
  rw [e65, e66, e9, e10]
  unfold Cert.ReferenceIdeal.Read.val_main_v89 Cert.ReferenceIdeal.Read.val_main_v86 Cert.ReferenceIdeal.Read.val_main_v85 Cert.ReferenceIdeal.Read.val_main_v84 Cert.ReferenceIdeal.Read.val_main_v83 Cert.ReferenceIdeal.Read.val_main_v88 Cert.ReferenceIdeal.Read.val_main_v87
  generalize Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = s
  generalize Cert.ReferenceIdeal.Read.val_main_v82 (F := Ideal) (m ((c : Thread nD τ).loc main_arg2)) = n
  rfl

/-- The program's run, read: the result array at the reference's last stage of the launch contents of the
    arguments, the arguments unchanged. -/
theorem run_value : θ_run defs (onTc (τ := τ) (main (F := Ideal))) ⟨m, fun _ => 0, ρ⟩ (fun r => ∀ c : Dev nD,
      r.2.mem ((c.tc : Thread nD τ).loc main_v73) = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (w13_v73 m ρ c), (h c).2⟩) (Gen.run_result m ρ)

end Cert.KernelIdeal.Chain

end
-- ==== Proof.lean ====
/- A three-layer graph convolution (degree-normalised message passing, a dense layer with bias and a clamp at zero per
   layer), mean-pooled per graph and classified, against the same network written in plain array operations.
   The two programs share every host operation: the degree vectors and their normalisations, each layer's gather
   along src and scatter-add along dst, the pooling and the classifier. They differ only in the dense layer,
   max ((agg * nd) W + b, 0): the kernel computes it in a pallas_call, twenty row blocks of 5000 nodes at a time,
   casting the product's operands to a narrower float format first, where the reference multiplies, contracts, adds and
   clamps whole arrays. Over the extended reals a change of float format is the identity and a matrix product into a
   zero accumulator is the plain sum over the contracted axis, so block by block the kernel's layer is the
   reference's, and the row blocks tile the array. No law of arithmetic beyond that is used (nothing is
   re-associated or distributed), so the finiteness of the inputs is never opened.
   The frames of the two kernel programs are the generated ones; the reference's frame is its generated run with
   the result dropped; nothing was rewritten by the idealization, so there is nothing to preserve. The value
   claim: the kernel program's run ends with its result array at the reference's last stage of the arguments (the
   value run, the host chain and the three region modules), the reference's run at the same stage of its own
   arguments (the generated run and its read-back), and the arguments agree. -/
import proofs.«115108_j46694884442368_1_alg».proof.Defs
import proofs.«115108_j46694884442368_1_alg».proof.Proof.Gen.Kernel
import proofs.«115108_j46694884442368_1_alg».proof.Proof.Gen.Kernel.Skeleton
import proofs.«115108_j46694884442368_1_alg».proof.Proof.Gen.Kernel.Launch
import proofs.«115108_j46694884442368_1_alg».proof.Proof.Gen.Kernel.Points
import proofs.«115108_j46694884442368_1_alg».proof.Proof.Gen.Kernel.Frame
import proofs.«115108_j46694884442368_1_alg».proof.Proof.Gen.KernelIdeal
import proofs.«115108_j46694884442368_1_alg».proof.Proof.Gen.KernelIdeal.Skeleton
import proofs.«115108_j46694884442368_1_alg».proof.Proof.Gen.KernelIdeal.Launch
import proofs.«115108_j46694884442368_1_alg».proof.Proof.Gen.KernelIdeal.Points
import proofs.«115108_j46694884442368_1_alg».proof.Proof.Gen.KernelIdeal.Frame
import proofs.«115108_j46694884442368_1_alg».proof.Proof.Gen.ReferenceIdeal
import proofs.«115108_j46694884442368_1_alg».proof.Proof.Gen.Pre_finite_inputs
import proofs.«115108_j46694884442368_1_alg».proof.Proof.Gen.ReferenceIdeal.Run
import proofs.«115108_j46694884442368_1_alg».proof.Proof.Gen.ReferenceIdeal.Read
import proofs.«115108_j46694884442368_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result at one function — the reference's last stage — of arguments that agree. -/
theorem algebraic : Cert.algebraic_KernelIdeal_ReferenceIdeal := by
  intro m ρ m' ρ' _ hagree
  refine ⟨fun c => Cert.ReferenceIdeal.Read.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Chain.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v89_eq]
  obtain ⟨h0, h1, h2, h3, h4, h5, h6, h7, h8, h9, h10⟩ := hagree c
  rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
